-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x2 : Shape := ⟨3, ![4096, 128, 2]⟩
abbrev S4096x2 : Shape := ⟨2, ![4096, 2]⟩
abbrev S4096x128 : Shape := ⟨2, ![4096, 128]⟩
abbrev S_ : Shape := ⟨0, ![]⟩

class Facts : Prop where
  bcast_S_S4096x128x2 : S_.BroadcastsInDim S4096x128x2 (![] : Fin 0 → Fin S4096x128x2.rank)
  reducesTo_S4096x128x2_S_d0_1_2 : S4096x128x2.ReducesTo [0, 1, 2] S_
  h_S_ : 0 < S_.numel
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S4096x128x2 .f32) (main_arg1 : FVec F S4096x2 .f32) (main_arg2 : IVec S4096x128 32) : IVec S_ 1 :=
  let main_v0 : FVec F S4096x128x2 .f32 := Host.absf main_arg0
  let main_cst : FVec F S_ .f32 := constant S_ .f32 0x7F800000#32
  let main_v1 : FVec F S4096x128x2 .f32 := broadcastInDim S4096x128x2 ![] bcast_S_S4096x128x2 main_cst
  let main_v2 : IVec S4096x128x2 1 := cmpf .olt main_v0 main_v1
  let main_c : IVec S_ 1 := constantI S_ 1 1#1
  let main_v3 : IVec S_ 1 := (fun x v => Host.reduce IntOp.andi x v reducesTo_S4096x128x2_S_d0_1_2 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  main_v8
-- ==== Kernel.lean ====
abbrev S4096x128x2 : Shape := ⟨3, ![4096, 128, 2]⟩
abbrev S4096x2 : Shape := ⟨2, ![4096, 2]⟩
abbrev S4096x128 : Shape := ⟨2, ![4096, 128]⟩
abbrev S4096x1x2 : Shape := ⟨3, ![4096, 1, 2]⟩
abbrev S_ : Shape := ⟨0, ![]⟩
abbrev S2x1x1 : Shape := ⟨3, ![2, 1, 1]⟩
abbrev S64x128 : Shape := ⟨2, ![64, 128]⟩
abbrev S1x1x1 : Shape := ⟨3, ![1, 1, 1]⟩
abbrev S1x1 : Shape := ⟨2, ![1, 1]⟩
abbrev S64x128x1 : Shape := ⟨3, ![64, 128, 1]⟩
abbrev S64x1x128 : Shape := ⟨3, ![64, 1, 128]⟩
abbrev S64x128x128 : Shape := ⟨3, ![64, 128, 128]⟩
abbrev S64 : Shape := ⟨1, ![64]⟩
abbrev S64x1 : Shape := ⟨2, ![64, 1]⟩
abbrev S1 : Shape := ⟨1, ![1]⟩

abbrev nBuf : Space → Nat
  | .hbm => 28
  | .vmem => 10
  | .smem => 0
  | _ => 0

abbrev bufTy : (tb : Table) → Fin (tcTables nBuf tb) → BufTy
  | .hbm, ⟨0, _⟩ => ⟨S4096x128x2, .f32⟩
  | .hbm, ⟨1, _⟩ => ⟨S4096x2, .f32⟩
  | .hbm, ⟨2, _⟩ => ⟨S4096x128, .i32⟩
  | .hbm, ⟨3, _⟩ => ⟨S4096x1x2, .f32⟩
  | .hbm, ⟨4, _⟩ => ⟨S4096x128x2, .f32⟩
  | .hbm, ⟨5, _⟩ => ⟨S4096x128x2, .f32⟩
  | .hbm, ⟨6, _⟩ => ⟨S4096x128x2, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S2x1x1, .f32⟩
  | .hbm, ⟨11, _⟩ => ⟨S2x1x1, .i32⟩
  | .hbm, ⟨12, _⟩ => ⟨S1x1x1, .f32⟩
  | .hbm, ⟨13, _⟩ => ⟨S_, .f32⟩
  | .hbm, ⟨14, _⟩ => ⟨S1x1x1, .f32⟩
  | .hbm, ⟨15, _⟩ => ⟨S_, .f32⟩
  | .hbm, ⟨16, _⟩ => ⟨S_, .f32⟩
  | .hbm, ⟨17, _⟩ => ⟨S1x1x1, .i32⟩
  | .hbm, ⟨18, _⟩ => ⟨S_, .i32⟩
  | .hbm, ⟨19, _⟩ => ⟨S1x1x1, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S64x128, .f32⟩
  | .local _ .vmem, ⟨1, _⟩ => ⟨S64x128, .f32⟩
  | .local _ .vmem, ⟨2, _⟩ => ⟨S64x128, .i32⟩
  | .local _ .vmem, ⟨3, _⟩ => ⟨S64x128, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .i32⟩
  | .local _ .vmem, ⟨7, _⟩ => ⟨S1x1x1, .i32⟩
  | .local _ .vmem, ⟨8, _⟩ => ⟨S1x1, .f32⟩
  | .local _ .vmem, ⟨9, _⟩ => ⟨S1x1, .i32⟩
  | _, _ => ⟨S4096x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v48 : BitVec 1 := Scalar.cmpi .eq arg1 c31_i32
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S4096x2_S4096x1x2_0_2 : S4096x2.BroadcastsInDim S4096x1x2 (![0, 2] : Fin 2 → Fin S4096x1x2.rank)
  bcast_S4096x1x2_S4096x128x2_0_1_2 : S4096x1x2.BroadcastsInDim S4096x128x2 (![0, 1, 2] : Fin 3 → Fin S4096x128x2.rank)
  reducesTo_S4096x128x2_S4096x128_d2 : S4096x128x2.ReducesTo [2] S4096x128
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  reduces_S64x128x128_S64x128 : S64x128x128.Reduces [2] S64x128
  reduces_S64x128_S64 : S64x128.Reduces [1] S64
  shapeCasts_S64_S64x1 : S64.ShapeCasts S64x1
  reduces_S64x1_S1 : S64x1.Reduces [0] S1
  shapeCasts_S1_S1x1 : S1.ShapeCasts S1x1
  natLt_1_32 : 1 < 32
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S4096x128.size a
  hwx0_1 : ∀ i : grid0.Coords, EltTy.bits .i32 = 32 ∨ (Rect.block (s := S4096x128) S64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .i32 = 32 ∨ (Rect.block (s := S2x1x1) S1x1x1.size (cc0_transform_3 i) (hinb0_3 i)).WholeWords (EltTy.packing .i32)

variable [Facts₀]

abbrev win0_0 : Pipeline.Window sig grid0 :=
  Pipeline.Window.ofSpec (Memref.whole main_v3) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x128x2 : Shape := ⟨3, ![4096, 128, 2]⟩
abbrev S4096x2 : Shape := ⟨2, ![4096, 2]⟩
abbrev S4096x128 : Shape := ⟨2, ![4096, 128]⟩
abbrev S4096x1x2 : Shape := ⟨3, ![4096, 1, 2]⟩
abbrev S_ : Shape := ⟨0, ![]⟩
abbrev S4096x128x1 : Shape := ⟨3, ![4096, 128, 1]⟩
abbrev S4096x1x128 : Shape := ⟨3, ![4096, 1, 128]⟩
abbrev S4096x128x128 : Shape := ⟨3, ![4096, 128, 128]⟩

abbrev nBuf : Space → Nat
  | .hbm => 43
  | .vmem => 0
  | .smem => 0
  | _ => 0

abbrev bufTy : (tb : Table) → Fin (tcTables nBuf tb) → BufTy
  | .hbm, ⟨0, _⟩ => ⟨S4096x128x2, .f32⟩
  | .hbm, ⟨1, _⟩ => ⟨S4096x2, .f32⟩
  | .hbm, ⟨2, _⟩ => ⟨S4096x128, .i32⟩
  | .hbm, ⟨3, _⟩ => ⟨S4096x1x2, .f32⟩
  | .hbm, ⟨4, _⟩ => ⟨S4096x128x2, .f32⟩
  | .hbm, ⟨5, _⟩ => ⟨S4096x128x2, .f32⟩
  | .hbm, ⟨6, _⟩ => ⟨S4096x128x2, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128x1, .f32⟩
  | .hbm, ⟨12, _⟩ => ⟨S4096x1x128, .f32⟩
  | .hbm, ⟨13, _⟩ => ⟨S4096x128x1, .f32⟩
  | .hbm, ⟨14, _⟩ => ⟨S4096x1x128, .f32⟩
  | .hbm, ⟨15, _⟩ => ⟨S4096x128x128, .f32⟩
  | .hbm, ⟨16, _⟩ => ⟨S4096x128x128, .f32⟩
  | .hbm, ⟨17, _⟩ => ⟨S4096x128x128, .i1⟩
  | .hbm, ⟨18, _⟩ => ⟨S4096x128x128, .f32⟩
  | .hbm, ⟨19, _⟩ => ⟨S4096x128x128, .f32⟩
  | .hbm, ⟨20, _⟩ => ⟨S4096x128x128, .i1⟩
  | .hbm, ⟨21, _⟩ => ⟨S4096x128x128, .i1⟩
  | .hbm, ⟨22, _⟩ => ⟨S4096x128x128, .f32⟩
  | .hbm, ⟨23, _⟩ => ⟨S4096x128x128, .f32⟩
  | .hbm, ⟨24, _⟩ => ⟨S4096x128x128, .f32⟩
  | .hbm, ⟨25, _⟩ => ⟨S4096x128x128, .f32⟩
  | .hbm, ⟨26, _⟩ => ⟨S4096x128x128, .f32⟩
  | .hbm, ⟨27, _⟩ => ⟨S4096x128x128, .f32⟩
  | .hbm, ⟨28, _⟩ => ⟨S4096x128x128, .f32⟩
  | .hbm, ⟨29, _⟩ => ⟨S_, .f32⟩
  | .hbm, ⟨30, _⟩ => ⟨S4096x128x128, .f32⟩
  | .hbm, ⟨31, _⟩ => ⟨S4096x128x128, .f32⟩
  | .hbm, ⟨32, _⟩ => ⟨S_, .f32⟩
  | .hbm, ⟨33, _⟩ => ⟨S_, .f32⟩
  | .hbm, ⟨34, _⟩ => ⟨S4096x128x128, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S4096x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_call1_v0 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S4096x2_S4096x1x2_0_2 : S4096x2.BroadcastsInDim S4096x1x2 (![0, 2] : Fin 2 → Fin S4096x1x2.rank)
  bcast_S4096x1x2_S4096x128x2_0_1_2 : S4096x1x2.BroadcastsInDim S4096x128x2 (![0, 1, 2] : Fin 3 → Fin S4096x128x2.rank)
  reducesTo_S4096x128x2_S4096x128_d2 : S4096x128x2.ReducesTo [2] S4096x128
  h_S_ : 0 < S_.numel
  bcast_S4096x128_S4096x128x1_0_1 : S4096x128.BroadcastsInDim S4096x128x1 (![0, 1] : Fin 2 → Fin S4096x128x1.rank)
  bcast_S4096x128_S4096x1x128_0_2 : S4096x128.BroadcastsInDim S4096x1x128 (![0, 2] : Fin 2 → Fin S4096x1x128.rank)
  bcast_S4096x128x1_S4096x128x128_0_1_2 : S4096x128x1.BroadcastsInDim S4096x128x128 (![0, 1, 2] : Fin 3 → Fin S4096x128x128.rank)
  bcast_S4096x1x128_S4096x128x128_0_1_2 : S4096x1x128.BroadcastsInDim S4096x128x128 (![0, 1, 2] : Fin 3 → Fin S4096x128x128.rank)
  bcast_S_S4096x128x128 : S_.BroadcastsInDim S4096x128x128 (![] : Fin 0 → Fin S4096x128x128.rank)
  reducesTo_S4096x128x128_S_d0_1_2 : S4096x128x128.ReducesTo [0, 1, 2] S_
  natLt_1_32 : 1 < 32

variable [Facts₀]

class Facts : Prop extends Facts₀ where

variable [Facts]
-- ==== Proof.Spec.lean ====
/-
  The pairwise rank-consistency loss, as plain sums.

  For one group g, with low-dimensional distances d_i and ranks r_i (i < 128), a pair (i, k) counts when
  r_i < r_k and d_i ≥ d_k, and then contributes (d_i - d_k) · (r_k - r_i). The loss is the sum of the contributions
  over all groups and pairs divided by the number of counting pairs (zero when there is none).
  The kernel tests the pair on the differences (r_k - r_i > 0, d_i - d_k ≥ 0); on finite distances that is the
  same test. It sums tile by tile (64 groups a tile, 32 tiles on each of two cores) and counts each tile's pairs
  through a real sum cast back to an integer.
-/
import Mathlib.Data.BitVec
import Idealize.ShloMosaic.PureOps.Ideal
import Idealize.ShloMosaic.PureOps.Ideal.Laws
import Idealize.ShloMosaic.Lib.ValueIdx

noncomputable section

namespace Cert.RankLoss

open Idealize.ShloMosaic Idealize.ShloMosaic.ValueIdx

/-- A rank word read as a (signed) integer, as a real. -/
def rk (w : BitVec 32) : EReal := ((w.toInt : ℝ) : EReal)

/-- Does the pair count? Tested on the differences: r_k - r_i > 0 and d_i - d_k ≥ 0. -/
def pairBit (di dk : EReal) (wi wk : BitVec 32) : BitVec 1 :=
  IntOp.andi (Ideal.cmp .ogt (rk wk - rk wi) 0) (Ideal.cmp .oge (di - dk) 0)

/-- The same, tested on the values: r_i < r_k and d_i ≥ d_k. -/
def pairBit' (di dk : EReal) (wi wk : BitVec 32) : BitVec 1 :=
  IntOp.andi (Ideal.cmp .olt (rk wi) (rk wk)) (Ideal.cmp .oge di dk)

/-- A pair's contribution. -/
def pairTerm (di dk : EReal) (wi wk : BitVec 32) : EReal :=
  Scalar.select (pairBit di dk wi wk) ((di - dk) * (rk wk - rk wi)) 0

/-- An array of n groups of 128. -/
abbrev SG (n : ℕ) : Shape := ⟨2, ![n, 128]⟩

variable {n : ℕ}

/-- One group's sum of contributions. -/
def rowSum (D : (SG n).Idx → EReal) (R : (SG n).Idx → BitVec 32) (g : Fin n) : EReal :=
  ∑ i : Fin 128, ∑ k : Fin 128, pairTerm (D (ix2 g i)) (D (ix2 g k)) (R (ix2 g i)) (R (ix2 g k))

/-- One group's number of counting pairs. -/
def rowCnt (D : (SG n).Idx → EReal) (R : (SG n).Idx → BitVec 32) (g : Fin n) : ℕ :=
  ∑ i : Fin 128, ∑ k : Fin 128, (pairBit (D (ix2 g i)) (D (ix2 g k)) (R (ix2 g i)) (R (ix2 g k))).toNat

/-- The sum of all contributions. -/
def lossSum (D : (SG n).Idx → EReal) (R : (SG n).Idx → BitVec 32) : EReal := ∑ g : Fin n, rowSum D R g

/-- The number of counting pairs. -/
def pairCount (D : (SG n).Idx → EReal) (R : (SG n).Idx → BitVec 32) : ℕ := ∑ g : Fin n, rowCnt D R g

/-- The quotient the programs end with: sum over count where the count, a signed 32-bit word, is positive. -/
def quotient (s : EReal) (c : BitVec 32) : EReal :=
  Scalar.select (Ideal.cmp .ogt (rk c) 0) (Ideal.div s (rk c)) 0

/-- The loss. -/
def loss (D : (SG n).Idx → EReal) (R : (SG n).Idx → BitVec 32) : EReal :=
  quotient (lossSum D R) (BitVec.ofNat 32 (pairCount D R))

/-- A running accumulator that restarts from `z` at every multiple of 32. -/
def runAcc {α : Type} [Add α] (z : α) (T : ℕ → α) : ℕ → α
  | 0 => z + T 0
  | n + 1 => if (n + 1) % 32 = 0 then z + T (n + 1) else runAcc z T n + T (n + 1)

end Cert.RankLoss

end
-- ==== Proof.SpecLaws.lean ====
/-
  What is proved about the pairwise rank-consistency loss of Spec.lean: the two forms of the pair test agree on finite
  distances; a real count casts back to its word; the restarting accumulator's two halves add up to the whole; sixty-four
  tiles of sixty-four groups make up the array. Then: a sum over a rank-3 index is the triple sum over its coordinates; the
  pair bits, widened to words, sum to the number of counting pairs, read as reals or in 32-bit words; a fold of word addition
  from zero is the sum.
-/
import proofs.«414256_j69896297775322_3_alg».proof.Proof.Spec
import Mathlib.Data.EReal.Operations
import Mathlib.Algebra.BigOperators.Fin
import Mathlib.Algebra.Order.BigOperators.Group.Finset
import Mathlib.Algebra.Order.Floor.Ring
import Idealize.ShloMosaic.PureOps.Reduce

noncomputable section

namespace Cert.RankLoss

open Idealize.ShloMosaic Idealize.ShloMosaic.ValueIdx

variable {n : ℕ}

/-! ## What is proved about them -/

/-- On finite distances the two tests agree. -/
theorem pairBit'_eq (di dk : ℝ) (wi wk : BitVec 32) :
    pairBit' (di : EReal) (dk : EReal) wi wk = pairBit (di : EReal) (dk : EReal) wi wk := by
  have h1 : (((wi.toInt : ℝ) : EReal) < ((wk.toInt : ℝ) : EReal))
      ↔ ((0 : EReal) < ((wk.toInt : ℝ) : EReal) - ((wi.toInt : ℝ) : EReal)) := by
    rw [← EReal.coe_sub, EReal.coe_pos, EReal.coe_lt_coe_iff, sub_pos]
  have h2 : ((dk : EReal) ≤ (di : EReal)) ↔ ((0 : EReal) ≤ (di : EReal) - (dk : EReal)) := by
    rw [← EReal.coe_sub, EReal.coe_nonneg, EReal.coe_le_coe_iff, sub_nonneg]
  unfold pairBit' pairBit rk Ideal.cmp
  simp only [h1, h2]

/-- A one-bit word reads as at most one. -/
private theorem bit_toNat_le_one (b : BitVec 1) : b.toNat ≤ 1 := by
  have := b.isLt
  omega

/-- A pair counts at most once. -/
theorem rowCnt_le (D : (SG n).Idx → EReal) (R : (SG n).Idx → BitVec 32) (g : Fin n) : rowCnt D R g ≤ 128 * 128 := by
  unfold rowCnt
  calc _ ≤ ∑ _i : Fin 128, ∑ _k : Fin 128, 1 :=
        Finset.sum_le_sum fun i _ => Finset.sum_le_sum fun k _ => bit_toNat_le_one _
    _ = 128 * 128 := by simp

theorem pairCount_le (D : (SG n).Idx → EReal) (R : (SG n).Idx → BitVec 32) : pairCount D R ≤ n * (128 * 128) := by
  unfold pairCount
  calc _ ≤ ∑ _g : Fin n, 128 * 128 := Finset.sum_le_sum fun g _ => rowCnt_le D R g
    _ = n * (128 * 128) := by simp

/-- A count below 2^31, as a real, casts back to the word of that count. -/
theorem fptosi_natCast (k : ℕ) (hk : k < 2 ^ 31) : Ideal.fptosi 32 (((k : ℕ) : ℝ) : EReal) = BitVec.ofNat 32 k := by
  have h0 : (0 : ℝ) ≤ (k : ℝ) := Nat.cast_nonneg k
  have hfl : ⌊(k : ℝ)⌋ = (k : ℤ) := Int.floor_natCast k
  have hval : Ideal.toIntClamped (-((2 ^ (32 - 1) : ℕ) : ℤ)) (((2 ^ (32 - 1) : ℕ) : ℤ) - 1) (((k : ℕ) : ℝ) : EReal) = (k : ℤ) := by
    show max (-((2 ^ (32 - 1) : ℕ) : ℤ)) (min (((2 ^ (32 - 1) : ℕ) : ℤ) - 1) (if 0 ≤ (k : ℝ) then ⌊(k : ℝ)⌋ else ⌈(k : ℝ)⌉)) = (k : ℤ)
    rw [if_pos h0, hfl]
    have : ((2 ^ (32 - 1) : ℕ) : ℤ) = 2147483648 := by norm_num
    rw [this]
    have hk' : (k : ℤ) < 2147483648 := by
      have : (2 : ℕ) ^ 31 = 2147483648 := by norm_num
      omega
    omega
  unfold Ideal.fptosi
  rw [hval]
  exact BitVec.ofInt_natCast 32 k

/-- A word whose signed reading is positive, as a real, is above zero exactly when the signed compare says so. -/
theorem cmp_ogt_rk_zero (c : BitVec 32) : Ideal.cmp .ogt (rk c) 0 = IntOp.cmpi .sgt c 0#32 := by
  unfold Ideal.cmp IntOp.cmpi rk
  simp only [BitVec.slt]
  congr 1
  have h : ((0 : EReal) < ((c.toInt : ℝ) : EReal)) ↔ ((0#32).toInt < c.toInt) := by
    rw [EReal.coe_pos, Int.cast_pos]
    simp
  simp only [h]

/-- At a multiple of 32 the accumulator restarts. -/
private theorem runAcc_restart {α : Type} [Add α] (z : α) (T : ℕ → α) (m : ℕ) (h : m % 32 = 0) :
    runAcc z T m = z + T m := by
  cases m with
  | zero => rfl
  | succ m => simp only [runAcc, h, if_true]

/-- Elsewhere it adds the next term. -/
private theorem runAcc_step {α : Type} [Add α] (z : α) (T : ℕ → α) (m : ℕ) (h : (m + 1) % 32 ≠ 0) :
    runAcc z T (m + 1) = runAcc z T m + T (m + 1) := by
  simp only [runAcc, h, if_false]

/-- Inside a block of 32 the accumulator holds the block's partial sum. -/
private theorem runAcc_block {α : Type} [AddCommMonoid α] (T : ℕ → α) (c j : ℕ) (hj : j ≤ 31) :
    runAcc 0 T (32 * c + j) = ∑ t ∈ Finset.range (j + 1), T (32 * c + t) := by
  induction j with
  | zero =>
    rw [runAcc_restart 0 T (32 * c + 0) (by omega)]
    simp
  | succ j ih =>
    have hstep : (32 * c + j + 1) % 32 ≠ 0 := by omega
    rw [← Nat.add_assoc, runAcc_step 0 T (32 * c + j) hstep, ih (by omega), Finset.sum_range_succ (n := j + 1), Nat.add_assoc]

/-- The two halves of the restarting accumulator add up to the whole sum. -/
theorem runAcc_halves {α : Type} [AddCommMonoid α] (T : ℕ → α) :
    runAcc 0 T 31 + runAcc 0 T 63 = ∑ t ∈ Finset.range 64, T t := by
  have h1 := runAcc_block T 0 31 (le_refl _)
  have h2 := runAcc_block T 1 31 (le_refl _)
  norm_num at h1 h2
  rw [h1, h2, show (64 : ℕ) = 32 + 32 from rfl, Finset.sum_range_add]

/-- Sixty-four tiles of sixty-four groups are the 4096 groups. -/
private def tileEquiv : Fin 64 × Fin 64 ≃ Fin 4096 where
  toFun p := ⟨64 * p.1.val + p.2.val, by omega⟩
  invFun x := (⟨x.val / 64, by omega⟩, ⟨x.val % 64, by omega⟩)
  left_inv p := by
    ext
    · show (64 * p.1.val + p.2.val) / 64 = p.1.val
      omega
    · show (64 * p.1.val + p.2.val) % 64 = p.2.val
      omega
  right_inv x := by
    ext
    show 64 * (x.val / 64) + x.val % 64 = x.val
    omega

/-- A sum over the 4096 groups, tile by tile. -/
private theorem sum_tiles {M : Type*} [AddCommMonoid M] (f : Fin 4096 → M) (F : ℕ → Fin 64 → M)
    (hF : ∀ (t : ℕ) (ht : t < 64) (g : Fin 64), F t g = f ⟨64 * t + g.val, by omega⟩) :
    ∑ t ∈ Finset.range 64, ∑ g : Fin 64, F t g = ∑ x : Fin 4096, f x := by
  rw [Finset.sum_range (fun t => ∑ g : Fin 64, F t g), ← Fintype.sum_prod_type' (fun (t : Fin 64) (g : Fin 64) => F t.val g)]
  exact Fintype.sum_equiv tileEquiv _ _ (fun p => hF p.1.val p.1.isLt p.2)

/-- Sixty-four tiles of sixty-four groups make up the 4096 groups: the tiles' sums add up to the sum. -/
theorem lossSum_tiles (D : (SG 4096).Idx → EReal) (R : (SG 4096).Idx → BitVec 32)
    (Dt : ℕ → (SG 64).Idx → EReal) (Rt : ℕ → (SG 64).Idx → BitVec 32)
    (hD : ∀ (t : ℕ) (ht : t < 64) (g : Fin 64) (i : Fin 128), Dt t (ix2 g i) = D (ix2 ⟨64 * t + g.val, by omega⟩ i))
    (hR : ∀ (t : ℕ) (ht : t < 64) (g : Fin 64) (i : Fin 128), Rt t (ix2 g i) = R (ix2 ⟨64 * t + g.val, by omega⟩ i)) :
    ∑ t ∈ Finset.range 64, lossSum (Dt t) (Rt t) = lossSum D R := by
  unfold lossSum
  refine sum_tiles (fun x => rowSum D R x) (fun t g => rowSum (Dt t) (Rt t) g) ?_
  intro t ht g
  unfold rowSum
  simp only [hD t ht, hR t ht]

/-- And the tiles' counts to the count. -/
theorem pairCount_tiles (D : (SG 4096).Idx → EReal) (R : (SG 4096).Idx → BitVec 32)
    (Dt : ℕ → (SG 64).Idx → EReal) (Rt : ℕ → (SG 64).Idx → BitVec 32)
    (hD : ∀ (t : ℕ) (ht : t < 64) (g : Fin 64) (i : Fin 128), Dt t (ix2 g i) = D (ix2 ⟨64 * t + g.val, by omega⟩ i))
    (hR : ∀ (t : ℕ) (ht : t < 64) (g : Fin 64) (i : Fin 128), Rt t (ix2 g i) = R (ix2 ⟨64 * t + g.val, by omega⟩ i)) :
    ∑ t ∈ Finset.range 64, pairCount (Dt t) (Rt t) = pairCount D R := by
  unfold pairCount
  refine sum_tiles (fun x => rowCnt D R x) (fun t g => rowCnt (Dt t) (Rt t) g) ?_
  intro t ht g
  unfold rowCnt
  simp only [hD t ht, hR t ht]

/-- The word of a sum of counts is the sum of the counts' words. -/
private theorem ofNat_sum {ι : Type*} (S : Finset ι) (a : ι → ℕ) :
    BitVec.ofNat 32 (∑ t ∈ S, a t) = ∑ t ∈ S, BitVec.ofNat 32 (a t) := by
  classical
  induction S using Finset.induction_on with
  | empty => simp
  | insert x S hx ih => rw [Finset.sum_insert hx, Finset.sum_insert hx, BitVec.ofNat_add, ih]

/-- THE KERNEL'S TOTALS. The two cores' accumulated sums add up to the sum of all contributions, and their accumulated
    word counts — each tile's count taken as a real and cast back — to the word of the number of counting pairs. -/
theorem kernel_totals (D : (SG 4096).Idx → EReal) (R : (SG 4096).Idx → BitVec 32)
    (Dt : ℕ → (SG 64).Idx → EReal) (Rt : ℕ → (SG 64).Idx → BitVec 32)
    (hD : ∀ (t : ℕ) (ht : t < 64) (g : Fin 64) (i : Fin 128), Dt t (ix2 g i) = D (ix2 ⟨64 * t + g.val, by omega⟩ i))
    (hR : ∀ (t : ℕ) (ht : t < 64) (g : Fin 64) (i : Fin 128), Rt t (ix2 g i) = R (ix2 ⟨64 * t + g.val, by omega⟩ i)) :
    runAcc (0 : EReal) (fun t => lossSum (Dt t) (Rt t)) 31 + runAcc (0 : EReal) (fun t => lossSum (Dt t) (Rt t)) 63 = lossSum D R
    ∧ runAcc (0#32) (fun t => Ideal.fptosi 32 (((pairCount (Dt t) (Rt t) : ℕ) : ℝ) : EReal)) 31
        + runAcc (0#32) (fun t => Ideal.fptosi 32 (((pairCount (Dt t) (Rt t) : ℕ) : ℝ) : EReal)) 63
      = BitVec.ofNat 32 (pairCount D R) := by
  constructor
  · rw [runAcc_halves (fun t => lossSum (Dt t) (Rt t))]
    exact lossSum_tiles D R Dt Rt hD hR
  · have hcast : ∀ t, Ideal.fptosi 32 (((pairCount (Dt t) (Rt t) : ℕ) : ℝ) : EReal) = BitVec.ofNat 32 (pairCount (Dt t) (Rt t)) := by
      intro t
      apply fptosi_natCast
      have := pairCount_le (Dt t) (Rt t)
      have h2 : (2 : ℕ) ^ 31 = 2147483648 := by norm_num
      omega
    simp only [hcast]
    have h := runAcc_halves (α := BitVec 32) (fun t => BitVec.ofNat 32 (pairCount (Dt t) (Rt t)))
    rw [← pairCount_tiles D R Dt Rt hD hR, ofNat_sum]
    exact h

/-! ## Sums of the pair bits, and a rank-3 index sum -/

/-- A rank-3 index set is the product of its three coordinate ranges. -/
private def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index is the triple sum over its coordinates. -/
theorem sum_idx3 {M : Type*} [AddCommMonoid M] {n0 n1 n2 : ℕ} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The cast of a finite sum of reals is the sum of the casts. -/
private theorem coe_sum {ι : Type*} (S : Finset ι) (a : ι → ℝ) :
    ((∑ t ∈ S, a t : ℝ) : EReal) = ∑ t ∈ S, (a t : EReal) := by
  classical
  induction S using Finset.induction_on with
  | empty => simp
  | insert x S hx ih => rw [Finset.sum_insert hx, Finset.sum_insert hx, EReal.coe_add, ih]

/-- A one-bit word widened to 32 bits is the word of its value. -/
private theorem setWidth_bit (b : BitVec 1) : b.setWidth 32 = BitVec.ofNat 32 b.toNat := by
  rcases BitVec.eq_zero_or_eq_one b with rfl | rfl <;> rfl

/-- A one-bit word widened to 32 bits reads, signed, as its value. -/
private theorem rk_setWidth_bit (b : BitVec 1) : rk (b.setWidth 32) = (((b.toNat : ℕ) : ℝ) : EReal) := by
  rcases BitVec.eq_zero_or_eq_one b with rfl | rfl
  · show (((((0#1).setWidth 32).toInt : ℤ) : ℝ) : EReal) = ((((0#1).toNat : ℕ) : ℝ) : EReal)
    have h : ((0#1).setWidth 32).toInt = 0 := by decide
    have h' : (0#1).toNat = 0 := by decide
    rw [h, h']
    simp
  · show (((((1#1).setWidth 32).toInt : ℤ) : ℝ) : EReal) = ((((1#1).toNat : ℕ) : ℝ) : EReal)
    have h : ((1#1).setWidth 32).toInt = 1 := by decide
    have h' : (1#1).toNat = 1 := by decide
    rw [h, h']
    simp

/-- The pair bits, widened to words and read as reals, sum to the number of counting pairs. -/
theorem sum_rk_bits (D : (SG n).Idx → EReal) (R : (SG n).Idx → BitVec 32) :
    ∑ g : Fin n, ∑ i : Fin 128, ∑ k : Fin 128, rk ((pairBit (D (ix2 g i)) (D (ix2 g k)) (R (ix2 g i)) (R (ix2 g k))).setWidth 32)
      = (((pairCount D R : ℕ) : ℝ) : EReal) := by
  unfold pairCount rowCnt
  simp only [rk_setWidth_bit, Nat.cast_sum, coe_sum]

/-- The pair bits, widened to words, sum (in 32-bit words) to the word of the number of counting pairs. -/
theorem sum_word_bits (D : (SG n).Idx → EReal) (R : (SG n).Idx → BitVec 32) :
    ∑ g : Fin n, ∑ i : Fin 128, ∑ k : Fin 128, (pairBit (D (ix2 g i)) (D (ix2 g k)) (R (ix2 g i)) (R (ix2 g k))).setWidth 32
      = BitVec.ofNat 32 (pairCount D R) := by
  unfold pairCount rowCnt
  simp only [setWidth_bit, ofNat_sum]

/-- A fold of word addition from zero over a finite set is the sum. -/
theorem fold_addi_eq_sum {ι : Type*} (s : Finset ι) (f : ι → BitVec 32) : s.fold IntOp.addi 0#32 f = ∑ i ∈ s, f i := by
  classical
  induction s using Finset.induction_on with
  | empty => rfl
  | insert x s hx ih => rw [Finset.fold_insert hx, Finset.sum_insert hx, ih]; rfl

end Cert.RankLoss

end
-- ==== Proof.Finite.lean ====
/-
  The precondition read: every entry of the two float inputs is a real number.
  `finite_inputs` is the conjunction of two "all" reductions of |x| < +∞; on the extended reals |x| < +∞ holds exactly of
  the reals.
-/
import proofs.«414256_j69896297775322_3_alg».proof.Pre_finite_inputs
import proofs.«414256_j69896297775322_3_alg».proof.Proof.Gen.Pre_finite_inputs
import Idealize.ShloMosaic.PureOps.Ideal
import Idealize.ShloMosaic.Lib.ReduceAll

noncomputable section

namespace Cert.RankLoss

open Idealize.ShloMosaic

/-- The scalar shape has one index. -/
private instance : Subsingleton Cert.Pre_finite_inputs.S_.Idx := ⟨fun _ _ => funext fun d => d.elim0⟩

/-- An extended real whose absolute value is below +∞ is a real: -∞ and +∞ both have absolute value +∞. -/
private theorem real_of_abs_lt_top (x : EReal) (h : max x (-x) < ⊤) : ∃ r : ℝ, x = (r : EReal) := by
  induction x using EReal.rec with
  | bot => simp at h
  | coe r => exact ⟨r, rfl⟩
  | top => simp at h

/-- The element test |x| < +∞, passed, says that x is a real. -/
private theorem real_of_test (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  exact real_of_abs_lt_top x hlt

/-- Under the precondition both float inputs hold reals only. -/
theorem finite_of_pre (x0 : FVec Ideal Cert.Pre_finite_inputs.S4096x128x2 .f32) (x1 : FVec Ideal Cert.Pre_finite_inputs.S4096x2 .f32)
    (x2 : IVec Cert.Pre_finite_inputs.S4096x128 32)
    (h : Cert.Pre_finite_inputs.fn (F := Ideal) x0 x1 x2 = fun _ => 1#1) :
    (∀ i, ∃ r : ℝ, x0 i = (r : EReal)) ∧ (∀ i, ∃ r : ℝ, x1 i = (r : EReal)) := by
  have h0 := congrFun h (fun a => a.elim0)
  dsimp only [Cert.Pre_finite_inputs.fn] at h0
  obtain ⟨ha, hb⟩ := IntOp.andi_eq_one.1 h0
  exact ⟨fun i => real_of_test (x0 i) (Host.reduce_andi_all _ _ _ _ _ ha i),
    fun i => real_of_test (x1 i) (Host.reduce_andi_all _ _ _ _ _ hb i)⟩

end Cert.RankLoss

end
-- ==== Proof.RefSide.lean ====
/-
  The reference computes the loss of Spec.lean. Its distances D[g, k] = sqrt (∑_d (a[g, k, d] - b[g, d])²) are reals
  when the inputs are; on real distances its pair test (r_i < r_k and D_i ≥ D_k) is the test on the differences; its sum
  over all of [4096, 128, 128] is the triple sum; its count, an integer sum of the widened mask, is the word of the
  number of counting pairs; and its signed test of the count is the real test of the converted count.
-/
import proofs.«414256_j69896297775322_3_alg».proof.Proof.RefRead
import proofs.«414256_j69896297775322_3_alg».proof.Proof.SpecLaws

noncomputable section

namespace Cert.ReferenceIdeal.RefValue

open Idealize.ShloMosaic Idealize.ShloMosaic.ValueIdx
open Cert.ReferenceIdeal Cert.ReferenceIdeal.Gen Cert.ReferenceIdeal.ReadP Cert.RankLoss

/-! ## The broadcasts' index functions at a triple (g, i, k) -/

section Index
variable (g : Fin 4096) (i k : Fin 128)

private theorem idx_7_9 : idx_main_v7 (idx_main_v9 (ix3 g i k)) = ix2 g i := by
  funext a; match a with | ⟨0, _⟩ => rfl | ⟨1, _⟩ => rfl
private theorem idx_8_10 : idx_main_v8 (idx_main_v10 (ix3 g i k)) = ix2 g k := by
  funext a; match a with | ⟨0, _⟩ => rfl | ⟨1, _⟩ => rfl
private theorem idx_5_12 : idx_main_v5 (idx_main_v12 (ix3 g i k)) = ix2 g i := by
  funext a; match a with | ⟨0, _⟩ => rfl | ⟨1, _⟩ => rfl
private theorem idx_6_13 : idx_main_v6 (idx_main_v13 (ix3 g i k)) = ix2 g k := by
  funext a; match a with | ⟨0, _⟩ => rfl | ⟨1, _⟩ => rfl
private theorem idx_5_16 : idx_main_v5 (idx_main_v16 (ix3 g i k)) = ix2 g i := by
  funext a; match a with | ⟨0, _⟩ => rfl | ⟨1, _⟩ => rfl
private theorem idx_6_17 : idx_main_v6 (idx_main_v17 (ix3 g i k)) = ix2 g k := by
  funext a; match a with | ⟨0, _⟩ => rfl | ⟨1, _⟩ => rfl
private theorem idx_8_19 : idx_main_v8 (idx_main_v19 (ix3 g i k)) = ix2 g k := by
  funext a; match a with | ⟨0, _⟩ => rfl | ⟨1, _⟩ => rfl
private theorem idx_7_20 : idx_main_v7 (idx_main_v20 (ix3 g i k)) = ix2 g i := by
  funext a; match a with | ⟨0, _⟩ => rfl | ⟨1, _⟩ => rfl

end Index

/-! ## The stages at a triple (g, i, k) -/

section Stages
variable (x0 : (⟨S4096x128x2, .f32⟩ : BufTy).Contents (Elt Ideal)) (x1 : (⟨S4096x2, .f32⟩ : BufTy).Contents (Elt Ideal))
  (x2 : (⟨S4096x128, .i32⟩ : BufTy).Contents (Elt Ideal)) (g : Fin 4096) (i k : Fin 128)

private theorem v9_at : val_main_v9 (F := Ideal) x2 (ix3 g i k) = rk (x2 (ix2 g i)) := by
  rw [val_main_v9_apply, val_main_v7_apply, val_main_v4_apply, idx_7_9]; rfl
private theorem v10_at : val_main_v10 (F := Ideal) x2 (ix3 g i k) = rk (x2 (ix2 g k)) := by
  rw [val_main_v10_apply, val_main_v8_apply, val_main_v4_apply, idx_8_10]; rfl
private theorem v19_at : val_main_v19 (F := Ideal) x2 (ix3 g i k) = rk (x2 (ix2 g k)) := by
  rw [val_main_v19_apply, val_main_v8_apply, val_main_v4_apply, idx_8_19]; rfl
private theorem v20_at : val_main_v20 (F := Ideal) x2 (ix3 g i k) = rk (x2 (ix2 g i)) := by
  rw [val_main_v20_apply, val_main_v7_apply, val_main_v4_apply, idx_7_20]; rfl
private theorem v12_at : val_main_v12 (F := Ideal) x0 x1 (ix3 g i k) = val_main_v3 (F := Ideal) x0 x1 (ix2 g i) := by
  rw [val_main_v12_apply, val_main_v5_apply, idx_5_12]
private theorem v13_at : val_main_v13 (F := Ideal) x0 x1 (ix3 g i k) = val_main_v3 (F := Ideal) x0 x1 (ix2 g k) := by
  rw [val_main_v13_apply, val_main_v6_apply, idx_6_13]
private theorem v16_at : val_main_v16 (F := Ideal) x0 x1 (ix3 g i k) = val_main_v3 (F := Ideal) x0 x1 (ix2 g i) := by
  rw [val_main_v16_apply, val_main_v5_apply, idx_5_16]
private theorem v17_at : val_main_v17 (F := Ideal) x0 x1 (ix3 g i k) = val_main_v3 (F := Ideal) x0 x1 (ix2 g k) := by
  rw [val_main_v17_apply, val_main_v6_apply, idx_6_17]

/-- The reference's mask is the pair test on the values. -/
private theorem v15_at : val_main_v15 (F := Ideal) x0 x1 x2 (ix3 g i k)
    = pairBit' (val_main_v3 (F := Ideal) x0 x1 (ix2 g i)) (val_main_v3 (F := Ideal) x0 x1 (ix2 g k)) (x2 (ix2 g i)) (x2 (ix2 g k)) := by
  rw [val_main_v15_apply, val_main_v11_apply, val_main_v14_apply, v9_at, v10_at, v12_at, v13_at]; rfl

/-- The reference's product is the pair's contribution. -/
private theorem v22_at : val_main_v22 (F := Ideal) x0 x1 x2 (ix3 g i k)
    = (val_main_v3 (F := Ideal) x0 x1 (ix2 g i) - val_main_v3 (F := Ideal) x0 x1 (ix2 g k)) * (rk (x2 (ix2 g k)) - rk (x2 (ix2 g i))) := by
  rw [val_main_v22_apply, val_main_v18_apply, val_main_v21_apply, v16_at, v17_at, v19_at, v20_at]; rfl

end Stages

/-- On real distances the test on the values is the test on the differences. -/
private theorem pairBit'_of_real (D : (SG 4096).Idx → EReal) (R : (SG 4096).Idx → BitVec 32)
    (hfin : ∀ j, ∃ r : ℝ, D j = (r : EReal)) (g : Fin 4096) (i k : Fin 128) :
    pairBit' (D (ix2 g i)) (D (ix2 g k)) (R (ix2 g i)) (R (ix2 g k))
      = pairBit (D (ix2 g i)) (D (ix2 g k)) (R (ix2 g i)) (R (ix2 g k)) := by
  obtain ⟨di, hdi⟩ := hfin (ix2 g i)
  obtain ⟨dk, hdk⟩ := hfin (ix2 g k)
  rw [hdi, hdk]
  exact pairBit'_eq di dk _ _

/-- Real inputs give real distances. -/
theorem dist_finite (x0 : (⟨S4096x128x2, .f32⟩ : BufTy).Contents (Elt Ideal)) (x1 : (⟨S4096x2, .f32⟩ : BufTy).Contents (Elt Ideal))
    (h0 : ∀ i, ∃ r : ℝ, x0 i = (r : EReal)) (h1 : ∀ i, ∃ r : ℝ, x1 i = (r : EReal)) :
    ∀ j, ∃ r : ℝ, val_main_v3 (F := Ideal) x0 x1 j = (r : EReal) := by
  intro j
  rw [val_main_v3_apply, val_main_call0_v1_apply, val_main_call0_cst_apply, Fin.sum_univ_two]
  simp only [val_main_call0_v0_apply, val_main_v2_apply, val_main_v1_apply, val_main_v0_apply]
  obtain ⟨a0, ha0⟩ := h0 (idx_main_call0_v1 j 0)
  obtain ⟨a1, ha1⟩ := h0 (idx_main_call0_v1 j 1)
  obtain ⟨b0, hb0⟩ := h1 (idx_main_v0 (idx_main_v1 (idx_main_call0_v1 j 0)))
  obtain ⟨b1, hb1⟩ := h1 (idx_main_v0 (idx_main_v1 (idx_main_call0_v1 j 1)))
  rw [ha0, ha1, hb0, hb1]
  simp only [Ideal.subf_def, Ideal.mulf_def, Ideal.hostUnary_sqrt_def, Ideal.ofBits_def, Ideal.ofBits_zero_f32, zero_add]
  rw [← EReal.coe_sub, ← EReal.coe_sub, ← EReal.coe_mul, ← EReal.coe_mul, ← EReal.coe_add, Ideal.sqrt_coe,
    if_neg (not_lt.2 (add_nonneg (mul_self_nonneg _) (mul_self_nonneg _)))]
  exact ⟨_, rfl⟩

/-- On real distances the reference's result is the loss of its distances and the ranks. -/
theorem ref_loss (x0 : (⟨S4096x128x2, .f32⟩ : BufTy).Contents (Elt Ideal)) (x1 : (⟨S4096x2, .f32⟩ : BufTy).Contents (Elt Ideal))
    (x2 : (⟨S4096x128, .i32⟩ : BufTy).Contents (Elt Ideal))
    (hfin : ∀ j, ∃ r : ℝ, val_main_v3 (F := Ideal) x0 x1 j = (r : EReal)) (i : S_.Idx) :
    val_main_v30 (F := Ideal) x0 x1 x2 i = loss (n := 4096) (val_main_v3 (F := Ideal) x0 x1) x2 := by
  -- the sum of the contributions
  have hsum : val_main_v24 (F := Ideal) x0 x1 x2 i = lossSum (n := 4096) (val_main_v3 (F := Ideal) x0 x1) x2 := by
    rw [val_main_v24_apply, val_main_cst_0_apply, Ideal.ofBits_def, Ideal.ofBits_zero_f32, zero_add, sum_idx3]
    unfold lossSum rowSum pairTerm
    refine Finset.sum_congr rfl fun g _ => Finset.sum_congr rfl fun a _ => Finset.sum_congr rfl fun b _ => ?_
    rw [val_main_v23_apply, v15_at, v22_at, val_main_call1_v0_apply, val_main_cst_apply, Ideal.ofBits_def,
      Ideal.ofBits_zero_f32, pairBit'_of_real _ _ hfin]
  -- the count
  have hcnt : val_main_v26 (F := Ideal) x0 x1 x2 i = BitVec.ofNat 32 (pairCount (n := 4096) (val_main_v3 (F := Ideal) x0 x1) x2) := by
    unfold val_main_v26
    rw [Host.reduce_eq_fold, Finset.filter_true_of_mem (fun j _ => funext fun b => b.elim0), val_main_c_apply,
      fold_addi_eq_sum, sum_idx3, ← sum_word_bits]
    refine Finset.sum_congr rfl fun g _ => Finset.sum_congr rfl fun a _ => Finset.sum_congr rfl fun b _ => ?_
    rw [val_main_v25_apply, v15_at, pairBit'_of_real _ _ hfin]
  rw [val_main_v30_apply, val_main_v27_apply, val_main_v29_apply, val_main_v28_apply, val_main_c_1_apply,
    val_main_cst_2_apply, hsum, hcnt, ← cmp_ogt_rk_zero, Ideal.ofBits_def, Ideal.ofBits_zero_f32, Ideal.hostDivf_def]
  rfl

end Cert.ReferenceIdeal.RefValue

end
-- ==== Proof.HostChain.lean ====
/-
  The distances the kernel's region is entered with are the reference's: before the region the kernel's program applies
  to its two float arguments the same seven host operations (broadcast, broadcast, subtract, square, zero, sum over the
  last axis, square root) the reference applies first.
-/
import proofs.«414256_j69896297775322_3_alg».proof.Proof.Gen.KernelIdeal.Frame
import proofs.«414256_j69896297775322_3_alg».proof.Proof.RefRead
import Idealize.ShloMosaic.Lib.StableHlo.Run

noncomputable section

namespace Cert.KernelIdeal.HostChain

open Idealize.ShloMosaic Idealize.ShloMosaic.TcCoe Idealize.SL.Sem Idealize.ShloMosaic.StableHlo
open Cert.KernelIdeal Cert.KernelIdeal.Gen

variable {F : FTy → Type} [FloatOps F]

/-- The array of distances window 0 stages, as the region finds it, is the reference's distance stage of the two float
    arguments as launched. -/
theorem V_main_v3 (m : (ℓ : Loc nD τ sig) → Buf (Elt F) ℓ) (c : Dev nD) :
    (V m c main_v3 : S4096x128.Idx → Elt F .f32)
      = Cert.ReferenceIdeal.ReadP.val_main_v3 (F := F) (m ((c : Thread nD τ).loc main_arg0)) (m ((c : Thread nD τ).loc main_arg1)) := by
  show StableHlo.after (List.flatten [hostOps0, hostOps0_1]) (fun b => m (c, b)) (Proc.devRef .tc main_v3) = _
  simp only [hostOps0, hostOps0_1, List.flatten_cons, List.flatten_nil, List.append_nil, List.cons_append, List.nil_append]
  after_results
  simp only [TRef.ofBuf, TRef.toBuf, cast_eq]
  unfold Cert.ReferenceIdeal.ReadP.val_main_v3 Cert.ReferenceIdeal.ReadP.val_main_call0_v1
    Cert.ReferenceIdeal.ReadP.val_main_call0_v0 Cert.ReferenceIdeal.ReadP.val_main_call0_cst
    Cert.ReferenceIdeal.ReadP.val_main_v2 Cert.ReferenceIdeal.ReadP.val_main_v1 Cert.ReferenceIdeal.ReadP.val_main_v0
  rfl

end Cert.KernelIdeal.HostChain

end
-- ==== Proof.LibPairwise.lean ====
/-
  The layout forms a pairwise (all pairs within a row) kernel meets, read at an index, for any extents: an `[a, b]`
  array viewed as `[a, b, 1]` (the pair's first member along the middle axis) and as `[a, 1, b]` (its second member
  along the last axis); each of those broadcast to `[a, b, c]`; and, at the extended reals, a sum of an `[a, b, c]`
  array over its last axis, and of a column `[a, 1]` over its rows, as plain sums.
-/
import Idealize.ShloMosaic.Lib.Pipeline.Value
import Idealize.ShloMosaic.Lib.ValueIdx
import Idealize.ShloMosaic.PureOps.Ideal.Laws

noncomputable section

namespace Idealize.ShloMosaic.Pairwise

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- `[a, b, 1]` broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, 1, c]` broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- At the extended reals a sum of an `[a, b, c]` array over its last axis, from the zero accumulator, reads at
    `(p, q)` as the sum over the last coordinate. -/
theorem lastSum_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => ?_
  refine congrArg src (funext fun ax => Fin.ext ?_)
  rw [Shape.Reduces.lift_val]
  match ax with
  | ⟨0, _⟩ => rfl
  | ⟨1, _⟩ => rfl
  | ⟨2, _⟩ => rfl

/-- At the extended reals a sum of a column `[a, 1]` over its rows, from the zero accumulator, is the sum of its entries. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ src acc h hφ hacc (ix1 u) = ∑ g : Fin a, src (ix2 g (0 : Fin 1)) := by
  refine (Ideal.multiReduction_add_single src acc h hφ hacc (ix1 u)).trans ?_
  refine Finset.sum_congr rfl fun g _ => ?_
  refine congrArg src (funext fun ax => Fin.ext ?_)
  rw [Shape.Reduces.lift_val]
  have hu : u.val = 0 := by omega
  match ax with
  | ⟨0, _⟩ => rfl
  | ⟨1, _⟩ => exact hu

end Idealize.ShloMosaic.Pairwise

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelTile.lean ====
/-
  What one grid point of the kernel computes from its two input blocks, at the extended reals: a block `x` of 64 groups'
  distances and a block `w` of their rank words. The difference arrays are read at a pair (g, i, k); the mask is the pair
  test of Spec.lean on the differences; the point adds to the running sum the block's sum of contributions, and its
  count of counting pairs, taken as a real, is cast back to a word and added to the running count.
-/
import proofs.«414256_j69896297775322_3_alg».proof.Proof.Gen.KernelIdeal.Skeleton
import proofs.«414256_j69896297775322_3_alg».proof.Proof.SpecLaws
import proofs.«414256_j69896297775322_3_alg».proof.Proof.LibPairwise
import proofs.«414256_j69896297775322_3_alg».proof.Proof.LibKeepdims

noncomputable section

namespace Cert.KernelIdeal.Tile

open Idealize.ShloMosaic Idealize.ShloMosaic.ValueIdx Idealize.ShloMosaic.Pairwise Idealize.ShloMosaic.Keepdims
open Cert.KernelIdeal Cert.KernelIdeal.Gen Cert.RankLoss

/-- The distance differences at a pair: d_i - d_k. -/
theorem pay7_apply (x : Vec Ideal S64x128 .f32) (g : Fin 64) (i k : Fin 128) :
    k0_pay7 (F := Ideal) x (ix3 g i k) = x (ix2 g i) - x (ix2 g k) := by
  unfold k0_pay7
  show (broadcastTo S64x128x128 (shapeCast S64x128x1 (shapeCast S64x128 x _) _) _ (ix3 g i k) : EReal)
      - broadcastTo S64x128x128 (shapeCast S64x1x128 (shapeCast S64x128 x _) _) _ (ix3 g i k) = _
  rw [broadcastTo_ab1_abc_apply, broadcastTo_a1c_abc_apply, shapeCast_ab_ab1_apply, shapeCast_ab_a1b_apply, shapeCast_self]

/-- The rank differences at a pair: r_k - r_i. -/
theorem pay8_apply (w : Vec Ideal S64x128 .i32) (g : Fin 64) (i k : Fin 128) :
    k0_pay8 (F := Ideal) w (ix3 g i k) = rk (w (ix2 g k)) - rk (w (ix2 g i)) := by
  unfold k0_pay8
  show (broadcastTo S64x128x128 (shapeCast S64x1x128 (sitofp (F := Ideal) .f32 w) _) _ (ix3 g i k) : EReal)
      - broadcastTo S64x128x128 (shapeCast S64x128x1 (sitofp (F := Ideal) .f32 w) _) _ (ix3 g i k) = _
  rw [broadcastTo_ab1_abc_apply, broadcastTo_a1c_abc_apply, shapeCast_ab_ab1_apply, shapeCast_ab_a1b_apply]
  rfl

/-- The mask at a pair is the pair test on the differences. -/
theorem pay9_apply (x : Vec Ideal S64x128 .f32) (w : Vec Ideal S64x128 .i32) (g : Fin 64) (i k : Fin 128) :
    k0_pay9 (F := Ideal) x w (ix3 g i k) = pairBit (x (ix2 g i)) (x (ix2 g k)) (w (ix2 g i)) (w (ix2 g k)) := by
  unfold k0_pay9
  show IntOp.andi (Ideal.cmp .ogt (k0_pay8 (F := Ideal) w (ix3 g i k)) (Ideal.ofBits .f32 0x00000000#32))
      (Ideal.cmp .oge (k0_pay7 (F := Ideal) x (ix3 g i k)) (Ideal.ofBits .f32 0x00000000#32)) = _
  rw [pay7_apply, pay8_apply, Ideal.ofBits_zero_f32]
  rfl

/-- A one-by-one index is the origin. -/
theorem idx11_eq (j k : S1x1.Idx) : j = k :=
  funext fun a => Fin.ext (by
    have hj := (j a).isLt; have hk := (k a).isLt
    match a with
    | ⟨0, _⟩ => exact (Nat.lt_one_iff.mp hj).trans (Nat.lt_one_iff.mp hk).symm
    | ⟨1, _⟩ => exact (Nat.lt_one_iff.mp hj).trans (Nat.lt_one_iff.mp hk).symm)

/-- THE SUM. The point adds to the running sum `s` the block's sum of contributions: the masked products summed over k,
    then over i, then over the block's 64 groups. -/
theorem pay11_apply (x : Vec Ideal S64x128 .f32) (w : Vec Ideal S64x128 .i32) (s : Vec Ideal S1x1 .f32) (j : S1x1.Idx) :
    k0_pay11 (F := Ideal) x w s j = s j + lossSum (n := 64) x w := by
  obtain ⟨p, q, rfl⟩ : ∃ (p : Fin 1) (q : Fin 1), j = ix2 p q := ⟨j 0, j 1, eq_ix2 j⟩
  unfold k0_pay11
  show s (ix2 p q) + shapeCast S1x1 _ _ (ix2 p q) = _
  refine congrArg (s (ix2 p q) + ·) ?_
  refine (shapeCast_a_a1_apply _ _ p q).trans ?_
  refine (colSum_apply _ _ _ _ _ p).trans ?_
  unfold lossSum
  refine Finset.sum_congr rfl fun g _ => ?_
  refine (shapeCast_a_a1_apply _ _ g 0).trans ?_
  refine (laneSum_apply _ _ _ _ _ g).trans ?_
  unfold rowSum
  refine Finset.sum_congr rfl fun i _ => ?_
  refine (lastSum_apply _ _ _ _ _ g i).trans ?_
  refine Finset.sum_congr rfl fun k _ => ?_
  show Scalar.select (k0_pay9 (F := Ideal) x w (ix3 g i k)) (k0_pay7 (F := Ideal) x (ix3 g i k) * k0_pay8 (F := Ideal) w (ix3 g i k))
      (Ideal.ofBits .f32 0x00000000#32) = _
  rw [pay9_apply, pay7_apply, pay8_apply, Ideal.ofBits_zero_f32]
  rfl

/-- THE COUNT, as a real. The mask's bits, widened to words and converted, summed the same way: the number of the
    block's counting pairs. -/
theorem pay10_apply (x : Vec Ideal S64x128 .f32) (w : Vec Ideal S64x128 .i32) (j : S1x1.Idx) :
    k0_pay10 (F := Ideal) x w j = (((pairCount (n := 64) x w : ℕ) : ℝ) : EReal) := by
  obtain ⟨p, q, rfl⟩ : ∃ (p : Fin 1) (q : Fin 1), j = ix2 p q := ⟨j 0, j 1, eq_ix2 j⟩
  unfold k0_pay10
  refine Eq.trans ?_ (sum_rk_bits (n := 64) x w)
  refine (shapeCast_a_a1_apply _ _ p q).trans ?_
  refine (colSum_apply _ _ _ _ _ p).trans ?_
  refine Finset.sum_congr rfl fun g _ => ?_
  refine (shapeCast_a_a1_apply _ _ g 0).trans ?_
  refine (laneSum_apply _ _ _ _ _ g).trans ?_
  refine Finset.sum_congr rfl fun i _ => ?_
  refine (lastSum_apply _ _ _ _ _ g i).trans ?_
  refine Finset.sum_congr rfl fun k _ => ?_
  show rk ((k0_pay9 (F := Ideal) x w (ix3 g i k)).setWidth 32) = _
  rw [pay9_apply]

/-- The running count `cw` takes the block's count, cast from the real `cf` back to a word. -/
theorem pay2_apply (cf : FVec Ideal S1x1 .f32) (cw : Vec Ideal S1x1 .i32) (j : S1x1.Idx) :
    k0_pay2 (F := Ideal) cf cw j = cw j + Ideal.fptosi 32 (cf j) := by
  unfold k0_pay2
  show shapeCast S1x1 (addi cw (fptosi 32 cf)) _ j = _
  rw [shapeCast_self]
  rfl

/-- The running sum is stored as it is. -/
theorem pay1_eq (v : FVec Ideal S1x1 .f32) : k0_pay1 (F := Ideal) v = v := by
  unfold k0_pay1
  exact shapeCast_self _ _

/-- The reset stores the real zero … -/
theorem pay5_apply (j : S1x1.Idx) : k0_pay5 (F := Ideal) j = 0 := by
  unfold k0_pay5
  show shapeCast S1x1 (broadcast S1x1 (Scalar.ofBits (F := Ideal) .f32 0x00000000#32)) _ j = _
  rw [shapeCast_self]
  exact Ideal.ofBits_zero_f32

/-- … and the zero word. -/
theorem pay6_apply (j : S1x1.Idx) : k0_pay6 j = 0#32 := by
  unfold k0_pay6
  show shapeCast S1x1 (broadcast S1x1 (0#32 : BitVec 32)) _ j = _
  rw [shapeCast_self]
  rfl

/-- The last point of a core copies the running sum into its output block … -/
theorem pay3_apply (v : Vec Ideal S1x1 .f32) (j : S1x1x1.Idx) (k : S1x1.Idx) : k0_pay3 (F := Ideal) v j = v k := by
  unfold k0_pay3
  exact shapeCast_apply v _ j k (by
    have h1 := (S1x1.rowMajor k).isLt; have h2 := (S1x1x1.rowMajor j).isLt
    have e1 : S1x1.numel = 1 := by decide
    have e2 : S1x1x1.numel = 1 := by decide
    omega)

/-- … and the running count into its. -/
theorem pay4_apply (v : Vec Ideal S1x1 .i32) (j : S1x1x1.Idx) (k : S1x1.Idx) : k0_pay4 v j = v k := by
  unfold k0_pay4
  exact shapeCast_apply v _ j k (by
    have h1 := (S1x1.rowMajor k).isLt; have h2 := (S1x1x1.rowMajor j).isLt
    have e1 : S1x1.numel = 1 := by decide
    have e2 : S1x1x1.numel = 1 := by decide
    omega)

end Cert.KernelIdeal.Tile

end
-- ==== Proof.KernelAcc.lean ====
/-
  What the kernel's two scratch cells and two output arrays hold, point by point, at the extended reals.
  The grid's 64 points run in order; points 0–31 are core 0's tiles, 32–63 core 1's. At a core's first tile the scratch is
  reset to zero; every point adds its tile's sum of contributions to the sum cell and its tile's count, a real cast back to a
  word, to the count cell; a core's last tile copies both cells into the core's entry of the two [2, 1, 1] outputs. So after
  point n the cells hold the restarting accumulators of Spec.lean over the tiles' sums and counts, and the output arrays end
  holding, at core c, the accumulators after point 32 c + 31.
-/
import proofs.«414256_j69896297775322_3_alg».proof.Proof.Gen.KernelIdeal.Frame
import proofs.«414256_j69896297775322_3_alg».proof.Proof.KernelTile
import Idealize.ShloMosaic.Lib.Pipeline.Value
import Idealize.ShloMosaic.Lib.Tactic

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.RankLoss

/-! ## What each case of the body leaves, as the payloads of its stores -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_B_0 (c : Dev nD) (i : grid0.Coords) (arg2 : Memref sig .tc .vmem S64x128 .f32) (harg2 : arg2.IsWhole) (arg3 : Memref sig .tc .vmem S64x128 .i32) (harg3 : arg3.IsWhole) (arg4 : Memref sig .tc .vmem S1x1x1 .f32) (harg4 : arg4.IsWhole) (arg5 : Memref sig .tc .vmem S1x1x1 .i32) (harg5 : arg5.IsWhole) (arg6 : Memref sig .tc .vmem S1x1 .f32) (harg6 : arg6.IsWhole) (arg7 : Memref sig .tc .vmem S1x1 .i32) (harg7 : arg7.IsWhole) (hc0 : ¬cond0_0 i) (hc1 : ¬cond0_1 i)
    (x0 : Vec F S64x128 .f32) (x1 : Vec F S64x128 .i32) (xs0 : Vec F S1x1 .f32) (xs1 : Vec F S1x1 .i32) :
    sout0_B_0 c i arg2 harg2 arg3 harg3 arg4 harg4 arg5 harg5 arg6 harg6 arg7 harg7 hc0 hc1 x0 x1 xs0 xs1 = k0_pay1 (k0_pay11 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S64x128) hz2, View.ld_unit_zero (S := S1x1) hz2]

theorem sout_B_1 (c : Dev nD) (i : grid0.Coords) (arg2 : Memref sig .tc .vmem S64x128 .f32) (harg2 : arg2.IsWhole) (arg3 : Memref sig .tc .vmem S64x128 .i32) (harg3 : arg3.IsWhole) (arg4 : Memref sig .tc .vmem S1x1x1 .f32) (harg4 : arg4.IsWhole) (arg5 : Memref sig .tc .vmem S1x1x1 .i32) (harg5 : arg5.IsWhole) (arg6 : Memref sig .tc .vmem S1x1 .f32) (harg6 : arg6.IsWhole) (arg7 : Memref sig .tc .vmem S1x1 .i32) (harg7 : arg7.IsWhole) (hc0 : ¬cond0_0 i) (hc1 : ¬cond0_1 i)
    (x0 : Vec F S64x128 .f32) (x1 : Vec F S64x128 .i32) (xs0 : Vec F S1x1 .f32) (xs1 : Vec F S1x1 .i32) :
    sout0_B_1 c i arg2 harg2 arg3 harg3 arg4 harg4 arg5 harg5 arg6 harg6 arg7 harg7 hc0 hc1 x0 x1 xs0 xs1 = k0_pay2 (k0_pay10 x0 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S64x128) hz2, View.ld_unit_zero (S := S1x1) hz2]

theorem sout_C_0 (c : Dev nD) (i : grid0.Coords) (arg2 : Memref sig .tc .vmem S64x128 .f32) (harg2 : arg2.IsWhole) (arg3 : Memref sig .tc .vmem S64x128 .i32) (harg3 : arg3.IsWhole) (arg4 : Memref sig .tc .vmem S1x1x1 .f32) (harg4 : arg4.IsWhole) (arg5 : Memref sig .tc .vmem S1x1x1 .i32) (harg5 : arg5.IsWhole) (arg6 : Memref sig .tc .vmem S1x1 .f32) (harg6 : arg6.IsWhole) (arg7 : Memref sig .tc .vmem S1x1 .i32) (harg7 : arg7.IsWhole) (hc0 : ¬cond0_0 i) (hc1 : cond0_1 i)
    (x0 : Vec F S64x128 .f32) (x1 : Vec F S64x128 .i32) (xs0 : Vec F S1x1 .f32) (xs1 : Vec F S1x1 .i32) :
    sout0_C_0 c i arg2 harg2 arg3 harg3 arg4 harg4 arg5 harg5 arg6 harg6 arg7 harg7 hc0 hc1 x0 x1 xs0 xs1 = k0_pay1 (k0_pay11 x0 x1 xs0) := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S64x128) hz2, View.ld_unit_zero (S := S1x1) hz2]

theorem sout_C_1 (c : Dev nD) (i : grid0.Coords) (arg2 : Memref sig .tc .vmem S64x128 .f32) (harg2 : arg2.IsWhole) (arg3 : Memref sig .tc .vmem S64x128 .i32) (harg3 : arg3.IsWhole) (arg4 : Memref sig .tc .vmem S1x1x1 .f32) (harg4 : arg4.IsWhole) (arg5 : Memref sig .tc .vmem S1x1x1 .i32) (harg5 : arg5.IsWhole) (arg6 : Memref sig .tc .vmem S1x1 .f32) (harg6 : arg6.IsWhole) (arg7 : Memref sig .tc .vmem S1x1 .i32) (harg7 : arg7.IsWhole) (hc0 : ¬cond0_0 i) (hc1 : cond0_1 i)
    (x0 : Vec F S64x128 .f32) (x1 : Vec F S64x128 .i32) (xs0 : Vec F S1x1 .f32) (xs1 : Vec F S1x1 .i32) :
    sout0_C_1 c i arg2 harg2 arg3 harg3 arg4 harg4 arg5 harg5 arg6 harg6 arg7 harg7 hc0 hc1 x0 x1 xs0 xs1 = k0_pay2 (k0_pay10 x0 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S64x128) hz2, View.ld_unit_zero (S := S1x1) hz2]

theorem out_C_2 (c : Dev nD) (i : grid0.Coords) (arg2 : Memref sig .tc .vmem S64x128 .f32) (harg2 : arg2.IsWhole) (arg3 : Memref sig .tc .vmem S64x128 .i32) (harg3 : arg3.IsWhole) (arg4 : Memref sig .tc .vmem S1x1x1 .f32) (harg4 : arg4.IsWhole) (arg5 : Memref sig .tc .vmem S1x1x1 .i32) (harg5 : arg5.IsWhole) (arg6 : Memref sig .tc .vmem S1x1 .f32) (harg6 : arg6.IsWhole) (arg7 : Memref sig .tc .vmem S1x1 .i32) (harg7 : arg7.IsWhole) (hc0 : ¬cond0_0 i) (hc1 : cond0_1 i)
    (x0 : Vec F S64x128 .f32) (x1 : Vec F S64x128 .i32) (xs0 : Vec F S1x1 .f32) (xs1 : Vec F S1x1 .i32) :
    out0_C_2 c i arg2 harg2 arg3 harg3 arg4 harg4 arg5 harg5 arg6 harg6 arg7 harg7 hc0 hc1 x0 x1 xs0 xs1 = k0_pay3 (k0_pay1 (k0_pay11 x0 x1 xs0)) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readCov_unit_zero (S := S1x1) _ hz2, View.readAt_eq_ld, harg2.read_unread, harg3.read_unread, harg6.read_unread, harg7.read_unread, View.ld_unit_zero (S := S64x128) hz2, View.ld_unit_zero (S := S1x1) hz2]

theorem out_C_3 (c : Dev nD) (i : grid0.Coords) (arg2 : Memref sig .tc .vmem S64x128 .f32) (harg2 : arg2.IsWhole) (arg3 : Memref sig .tc .vmem S64x128 .i32) (harg3 : arg3.IsWhole) (arg4 : Memref sig .tc .vmem S1x1x1 .f32) (harg4 : arg4.IsWhole) (arg5 : Memref sig .tc .vmem S1x1x1 .i32) (harg5 : arg5.IsWhole) (arg6 : Memref sig .tc .vmem S1x1 .f32) (harg6 : arg6.IsWhole) (arg7 : Memref sig .tc .vmem S1x1 .i32) (harg7 : arg7.IsWhole) (hc0 : ¬cond0_0 i) (hc1 : cond0_1 i)
    (x0 : Vec F S64x128 .f32) (x1 : Vec F S64x128 .i32) (xs0 : Vec F S1x1 .f32) (xs1 : Vec F S1x1 .i32) :
    out0_C_3 c i arg2 harg2 arg3 harg3 arg4 harg4 arg5 harg5 arg6 harg6 arg7 harg7 hc0 hc1 x0 x1 xs0 xs1 = k0_pay4 (F := F) (k0_pay2 (k0_pay10 x0 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readCov_unit_zero (S := S1x1) _ hz2, View.readAt_eq_ld, harg2.read_unread, harg3.read_unread, harg6.read_unread, harg7.read_unread, View.ld_unit_zero (S := S64x128) hz2, View.ld_unit_zero (S := S1x1) hz2]

theorem sout_A_0 (c : Dev nD) (i : grid0.Coords) (arg2 : Memref sig .tc .vmem S64x128 .f32) (harg2 : arg2.IsWhole) (arg3 : Memref sig .tc .vmem S64x128 .i32) (harg3 : arg3.IsWhole) (arg4 : Memref sig .tc .vmem S1x1x1 .f32) (harg4 : arg4.IsWhole) (arg5 : Memref sig .tc .vmem S1x1x1 .i32) (harg5 : arg5.IsWhole) (arg6 : Memref sig .tc .vmem S1x1 .f32) (harg6 : arg6.IsWhole) (arg7 : Memref sig .tc .vmem S1x1 .i32) (harg7 : arg7.IsWhole) (hc0 : cond0_0 i) (hc1 : ¬cond0_1 i)
    (x0 : Vec F S64x128 .f32) (x1 : Vec F S64x128 .i32) :
    sout0_A_0 c i arg2 harg2 arg3 harg3 arg4 harg4 arg5 harg5 arg6 harg6 arg7 harg7 hc0 hc1 x0 x1 = k0_pay1 (k0_pay11 x0 x1 (k0_pay5 (F := F))) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2]
  simp only [View.readCov_unit_zero (S := S1x1) _ hz2, View.readAt_eq_ld, harg2.read_unread, harg3.read_unread, harg6.read_unread, harg7.read_unread, View.ld_unit_zero (S := S64x128) hz2, View.ld_unit_zero (S := S1x1) hz2]

theorem sout_A_1 (c : Dev nD) (i : grid0.Coords) (arg2 : Memref sig .tc .vmem S64x128 .f32) (harg2 : arg2.IsWhole) (arg3 : Memref sig .tc .vmem S64x128 .i32) (harg3 : arg3.IsWhole) (arg4 : Memref sig .tc .vmem S1x1x1 .f32) (harg4 : arg4.IsWhole) (arg5 : Memref sig .tc .vmem S1x1x1 .i32) (harg5 : arg5.IsWhole) (arg6 : Memref sig .tc .vmem S1x1 .f32) (harg6 : arg6.IsWhole) (arg7 : Memref sig .tc .vmem S1x1 .i32) (harg7 : arg7.IsWhole) (hc0 : cond0_0 i) (hc1 : ¬cond0_1 i)
    (x0 : Vec F S64x128 .f32) (x1 : Vec F S64x128 .i32) :
    sout0_A_1 c i arg2 harg2 arg3 harg3 arg4 harg4 arg5 harg5 arg6 harg6 arg7 harg7 hc0 hc1 x0 x1 = k0_pay2 (k0_pay10 x0 x1) k0_pay6 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2]
  simp only [View.readCov_unit_zero (S := S1x1) _ hz2, View.readAt_eq_ld, harg2.read_unread, harg3.read_unread, harg6.read_unread, harg7.read_unread, View.ld_unit_zero (S := S64x128) hz2, View.ld_unit_zero (S := S1x1) hz2]

end Pieces

/-! ## The accumulators -/

section Acc

variable (m : (ℓ : Loc nD τ sig) → Buf (Elt Ideal) ℓ) (ρ : Dev nD → PrngReg)

/-- The block of distances and the block of rank words point `t` is called with. -/
abbrev xblk (c : Dev nD) (t : Fin cfg0.N) : Vec Ideal S64x128 .f32 := iblk m c 0 t
abbrev wblk (c : Dev nD) (t : Fin cfg0.N) : Vec Ideal S64x128 .i32 := iblk m c 1 t

/-- The same by the point's number (zero past the grid, where nothing reads them). -/
def Dt (c : Dev nD) (n : ℕ) : (SG 64).Idx → EReal := if h : n < cfg0.N then xblk m c ⟨n, h⟩ else fun _ => 0
def Rt (c : Dev nD) (n : ℕ) : (SG 64).Idx → BitVec 32 := if h : n < cfg0.N then wblk m c ⟨n, h⟩ else fun _ => 0#32

/-- The sum cell and the count cell after point `n`. -/
def accS (c : Dev nD) (n : ℕ) : EReal := runAcc (0 : EReal) (fun t => lossSum (Dt m c t) (Rt m c t)) n
def accC (c : Dev nD) (n : ℕ) : BitVec 32 :=
  runAcc (0#32) (fun t => Ideal.fptosi 32 (((pairCount (Dt m c t) (Rt m c t) : ℕ) : ℝ) : EReal)) n

theorem accS_zero (c : Dev nD) (h : 0 < cfg0.N) : accS m c 0 = 0 + lossSum (n := 64) (xblk m c ⟨0, h⟩) (wblk m c ⟨0, h⟩) := by
  unfold accS; simp only [runAcc, Dt, Rt, dif_pos h]
theorem accC_zero (c : Dev nD) (h : 0 < cfg0.N) :
    accC m c 0 = 0#32 + Ideal.fptosi 32 (((pairCount (n := 64) (xblk m c ⟨0, h⟩) (wblk m c ⟨0, h⟩) : ℕ) : ℝ) : EReal) := by
  unfold accC; simp only [runAcc, Dt, Rt, dif_pos h]
theorem accS_restart (c : Dev nD) (n : ℕ) (h : n + 1 < cfg0.N) (h0 : (n + 1) % 32 = 0) :
    accS m c (n + 1) = 0 + lossSum (n := 64) (xblk m c ⟨n + 1, h⟩) (wblk m c ⟨n + 1, h⟩) := by
  unfold accS; simp only [runAcc, if_pos h0, Dt, Rt, dif_pos h]
theorem accC_restart (c : Dev nD) (n : ℕ) (h : n + 1 < cfg0.N) (h0 : (n + 1) % 32 = 0) :
    accC m c (n + 1) = 0#32 + Ideal.fptosi 32 (((pairCount (n := 64) (xblk m c ⟨n + 1, h⟩) (wblk m c ⟨n + 1, h⟩) : ℕ) : ℝ) : EReal) := by
  unfold accC; simp only [runAcc, if_pos h0, Dt, Rt, dif_pos h]
theorem accS_step (c : Dev nD) (n : ℕ) (h : n + 1 < cfg0.N) (h0 : ¬(n + 1) % 32 = 0) :
    accS m c (n + 1) = accS m c n + lossSum (n := 64) (xblk m c ⟨n + 1, h⟩) (wblk m c ⟨n + 1, h⟩) := by
  unfold accS; simp only [runAcc, if_neg h0, Dt, Rt, dif_pos h]
theorem accC_step (c : Dev nD) (n : ℕ) (h : n + 1 < cfg0.N) (h0 : ¬(n + 1) % 32 = 0) :
    accC m c (n + 1) = accC m c n + Ideal.fptosi 32 (((pairCount (n := 64) (xblk m c ⟨n + 1, h⟩) (wblk m c ⟨n + 1, h⟩) : ℕ) : ℝ) : EReal) := by
  unfold accC; simp only [runAcc, if_neg h0, Dt, Rt, dif_pos h]

/-- One point's update of the sum cell, from a cell holding `a`. -/
theorem step_sum (x : Vec Ideal S64x128 .f32) (w : Vec Ideal S64x128 .i32) (s : Vec Ideal S1x1 .f32) (a : EReal)
    (hs : s = fun _ => a) :
    k0_pay1 (F := Ideal) (k0_pay11 (F := Ideal) x w s) = fun _ => a + lossSum (n := 64) x w := by
  rw [Tile.pay1_eq]; funext j; rw [Tile.pay11_apply, hs]

/-- One point's update of the count cell, from a cell holding `b`. -/
theorem step_cnt (x : Vec Ideal S64x128 .f32) (w : Vec Ideal S64x128 .i32) (cw : Vec Ideal S1x1 .i32) (b : BitVec 32)
    (hc : cw = fun _ => b) :
    k0_pay2 (F := Ideal) (k0_pay10 (F := Ideal) x w) cw
      = fun _ => b + Ideal.fptosi 32 (((pairCount (n := 64) x w : ℕ) : ℝ) : EReal) := by
  funext j; rw [Tile.pay2_apply, Tile.pay10_apply, hc]

/-- THE INVARIANT: after point `n` the two cells hold the accumulators. By induction on the point. -/
theorem scratch_eq (c : Dev nD) : ∀ (n : ℕ) (h : n < cfg0.N),
    (outsAt0 m c n h).2.2.1 = (fun _ => accS m c n) ∧ (outsAt0 m c n h).2.2.2 = (fun _ => accC m c n)
  | 0, h => by
    have e : outsAt0 m c 0 h = _ := outsAt0_A m c ⟨0, h⟩ rfl (show ¬(0 : ℕ) % 32 = 31 by decide)
    rw [e]; dsimp only
    rw [sout_A_0 (F := Ideal), sout_A_1 (F := Ideal), accS_zero m c h, accC_zero m c h]
    exact ⟨step_sum (xblk m c ⟨0, h⟩) (wblk m c ⟨0, h⟩) (k0_pay5 (F := Ideal)) 0 (funext Tile.pay5_apply),
      step_cnt (xblk m c ⟨0, h⟩) (wblk m c ⟨0, h⟩) k0_pay6 0#32 (funext Tile.pay6_apply)⟩
  | n + 1, h => by
    have ih := scratch_eq c n (Nat.lt_of_succ_lt h)
    have hN : cfg0.N = 64 := N_0
    by_cases h0 : (n + 1) % 32 = 0
    · have h1 : ¬(n + 1) % 32 = 31 := by omega
      have e : outsAt0 m c (n + 1) h = _ := outsAt0_A m c ⟨n + 1, h⟩ h0 h1
      rw [e]; dsimp only
      rw [sout_A_0 (F := Ideal), sout_A_1 (F := Ideal), accS_restart m c n h h0, accC_restart m c n h h0]
      exact ⟨step_sum (xblk m c ⟨n + 1, h⟩) (wblk m c ⟨n + 1, h⟩) (k0_pay5 (F := Ideal)) 0 (funext Tile.pay5_apply),
        step_cnt (xblk m c ⟨n + 1, h⟩) (wblk m c ⟨n + 1, h⟩) k0_pay6 0#32 (funext Tile.pay6_apply)⟩
    · by_cases h1 : (n + 1) % 32 = 31
      · have e : outsAt0 m c (n + 1) h = _ := outsAt0_C m c ⟨n + 1, h⟩ h0 h1
        rw [e]; dsimp only
        rw [sout_C_0 (F := Ideal), sout_C_1 (F := Ideal), accS_step m c n h h0, accC_step m c n h h0]
        exact ⟨step_sum (xblk m c ⟨n + 1, h⟩) (wblk m c ⟨n + 1, h⟩) _ (accS m c n) ih.1,
          step_cnt (xblk m c ⟨n + 1, h⟩) (wblk m c ⟨n + 1, h⟩) _ (accC m c n) ih.2⟩
      · have e : outsAt0 m c (n + 1) h = _ := outsAt0_B m c ⟨n + 1, h⟩ h0 h1
        rw [e]; dsimp only
        rw [sout_B_0 (F := Ideal), sout_B_1 (F := Ideal), accS_step m c n h h0, accC_step m c n h h0]
        exact ⟨step_sum (xblk m c ⟨n + 1, h⟩) (wblk m c ⟨n + 1, h⟩) _ (accS m c n) ih.1,
          step_cnt (xblk m c ⟨n + 1, h⟩) (wblk m c ⟨n + 1, h⟩) _ (accC m c n) ih.2⟩

/-! ## The two output arrays -/

/-- At a core's last tile both outputs' staging blocks take the cells' new contents. -/
theorem out_eq (c : Dev nD) (n : ℕ) (h : n + 1 < cfg0.N) (h0 : ¬(n + 1) % 32 = 0) (h1 : (n + 1) % 32 = 31) (j : S1x1x1.Idx) :
    (outsAt0 m c (n + 1) h).1 j = accS m c (n + 1) ∧ (outsAt0 m c (n + 1) h).2.1 j = accC m c (n + 1) := by
  have ih := scratch_eq m c n (Nat.lt_of_succ_lt h)
  have e : outsAt0 m c (n + 1) h = _ := outsAt0_C m c ⟨n + 1, h⟩ h0 h1
  rw [e]; dsimp only
  rw [out_C_2 (F := Ideal), out_C_3 (F := Ideal), accS_step m c n h h0, accC_step m c n h h0]
  constructor
  · rw [Tile.pay3_apply _ j (ix2 0 0)]
    exact congrFun (step_sum (xblk m c ⟨n + 1, h⟩) (wblk m c ⟨n + 1, h⟩) _ (accS m c n) ih.1) (ix2 0 0)
  · rw [Tile.pay4_apply _ j (ix2 0 0)]
    exact congrFun (step_cnt (xblk m c ⟨n + 1, h⟩) (wblk m c ⟨n + 1, h⟩) _ (accC m c n) ih.2) (ix2 0 0)

/-- What the sum output and the count output end holding: at core `i 0`, the cells after that core's last tile. -/
def finS (c : Dev nD) : S2x1x1.Idx → EReal := fun i => accS m c (32 * (i 0).val + 31)
def finC (c : Dev nD) : S2x1x1.Idx → BitVec 32 := fun i => accC m c (32 * (i 0).val + 31)

/-- The output windows' block at point `t` is its core's: (t / 32, 0, 0). -/
theorem idx_out : ∀ t : Fin cfg0.N, win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

/-- What a write-back of the sum output writes is the block of `finS`. -/
theorem flushed2_eq (c : Dev nD) (t : Fin cfg0.N) (hf : (cfg0.win 2).flush t = true) :
    (dats m 0 c).flushed 2 t = ((cfg0.win 2).blk t).view.read (Elt Ideal) (finS m c) := by
  have hN : cfg0.N = 64 := N_0
  have h31 : t.val % 32 = 31 := (flush0_2 t).mp hf
  obtain ⟨tv, ht⟩ := t
  cases tv with
  | zero => exact absurd (show (0 : ℕ) % 32 = 31 from h31) (by decide)
  | succ n =>
    have h31' : (n + 1) % 32 = 31 := h31
    have h0 : ¬(n + 1) % 32 = 0 := by omega
    show (cfg0.win 2).cut (grid0.coords ⟨n + 1, ht⟩) ((dats m 0 c).after 2 ⟨n + 1, ht⟩) = _
    rw [after0_2]
    funext j
    show (outsAt0 m c (n + 1) ht).1 ((cfg0.win 2).xinj (grid0.coords ⟨n + 1, ht⟩) j)
        = finS m c (((cfg0.win 2).blk ⟨n + 1, ht⟩).view.emb j)
    rw [(out_eq m c n ht h0 h31' _).1]
    unfold finS
    refine congrArg (accS m c) ?_
    show n + 1 = 32 * (win0_2.index ⟨n + 1, ht⟩ (0 : Fin 3) * 1 + 1 * (j 0).val) + 31
    have hj : (j 0).val < 1 := (j 0).isLt
    rw [(idx_out ⟨n + 1, ht⟩).1]
    show n + 1 = 32 * ((n + 1) / 32 * 1 + 1 * (j 0).val) + 31
    omega

/-- The same for the count output. -/
theorem flushed3_eq (c : Dev nD) (t : Fin cfg0.N) (hf : (cfg0.win 3).flush t = true) :
    (dats m 0 c).flushed 3 t = ((cfg0.win 3).blk t).view.read (Elt Ideal) (finC m c) := by
  have hN : cfg0.N = 64 := N_0
  have h31 : t.val % 32 = 31 := (flush0_3 t).mp hf
  obtain ⟨tv, ht⟩ := t
  cases tv with
  | zero => exact absurd (show (0 : ℕ) % 32 = 31 from h31) (by decide)
  | succ n =>
    have h31' : (n + 1) % 32 = 31 := h31
    have h0 : ¬(n + 1) % 32 = 0 := by omega
    show (cfg0.win 3).cut (grid0.coords ⟨n + 1, ht⟩) ((dats m 0 c).after 3 ⟨n + 1, ht⟩) = _
    rw [after0_3]
    funext j
    show (outsAt0 m c (n + 1) ht).2.1 ((cfg0.win 3).xinj (grid0.coords ⟨n + 1, ht⟩) j)
        = finC m c (((cfg0.win 3).blk ⟨n + 1, ht⟩).view.emb j)
    rw [(out_eq m c n ht h0 h31' _).2]
    unfold finC
    refine congrArg (accC m c) ?_
    show n + 1 = 32 * (win0_3.index ⟨n + 1, ht⟩ (0 : Fin 3) * 1 + 1 * (j 0).val) + 31
    have hj : (j 0).val < 1 := (j 0).isLt
    rw [(idx_out ⟨n + 1, ht⟩).2.2.2.1]
    show n + 1 = 32 * ((n + 1) / 32 * 1 + 1 * (j 0).val) + 31
    omega

/-- Core `i 0`'s last tile writes entry `i` back. -/
theorem cover2 (i : S2x1x1.Idx) :
    ∃ t : Fin cfg0.N, (cfg0.win 2).flush t = true ∧ i ∈ ((cfg0.win 2).blk t).view.set := by
  have hN : cfg0.N = 64 := N_0
  have hi0 : (i 0).val < 2 := (i 0).isLt
  have hi1 : (i 1).val < 1 := (i 1).isLt
  have hi2 : (i 2).val < 1 := (i 2).isLt
  have ht : 32 * (i 0).val + 31 < cfg0.N := by omega
  refine ⟨⟨32 * (i 0).val + 31, ht⟩, (flush0_2 _).mpr (by show (32 * (i 0).val + 31) % 32 = 31; omega), ?_⟩
  show i ∈ ((View.whole main_v4_0).slice (win0_2.rect ⟨32 * (i 0).val + 31, ht⟩)).set
  rw [View.set_slice_whole, Rect.mem_set_unit]
  obtain ⟨e0, e1, e2, -⟩ := idx_out ⟨32 * (i 0).val + 31, ht⟩
  have e0' : win0_2.index ⟨32 * (i 0).val + 31, ht⟩ (0 : Fin 3) = (32 * (i 0).val + 31) / 32 := e0
  intro a
  match a with
  | ⟨0, _⟩ =>
    show win0_2.index ⟨32 * (i 0).val + 31, ht⟩ (0 : Fin 3) * 1 ≤ (i 0).val
      ∧ (i 0).val < win0_2.index ⟨32 * (i 0).val + 31, ht⟩ (0 : Fin 3) * 1 + 1
    rw [e0']; omega
  | ⟨1, _⟩ =>
    show win0_2.index ⟨32 * (i 0).val + 31, ht⟩ (1 : Fin 3) * 1 ≤ (i 1).val
      ∧ (i 1).val < win0_2.index ⟨32 * (i 0).val + 31, ht⟩ (1 : Fin 3) * 1 + 1
    rw [e1]; omega
  | ⟨2, _⟩ =>
    show win0_2.index ⟨32 * (i 0).val + 31, ht⟩ (2 : Fin 3) * 1 ≤ (i 2).val
      ∧ (i 2).val < win0_2.index ⟨32 * (i 0).val + 31, ht⟩ (2 : Fin 3) * 1 + 1
    rw [e2]; omega

theorem cover3 (i : S2x1x1.Idx) :
    ∃ t : Fin cfg0.N, (cfg0.win 3).flush t = true ∧ i ∈ ((cfg0.win 3).blk t).view.set := by
  have hN : cfg0.N = 64 := N_0
  have hi0 : (i 0).val < 2 := (i 0).isLt
  have hi1 : (i 1).val < 1 := (i 1).isLt
  have hi2 : (i 2).val < 1 := (i 2).isLt
  have ht : 32 * (i 0).val + 31 < cfg0.N := by omega
  refine ⟨⟨32 * (i 0).val + 31, ht⟩, (flush0_3 _).mpr (by show (32 * (i 0).val + 31) % 32 = 31; omega), ?_⟩
  show i ∈ ((View.whole main_v4_1).slice (win0_3.rect ⟨32 * (i 0).val + 31, ht⟩)).set
  rw [View.set_slice_whole, Rect.mem_set_unit]
  obtain ⟨-, -, -, e0, e1, e2⟩ := idx_out ⟨32 * (i 0).val + 31, ht⟩
  have e0' : win0_3.index ⟨32 * (i 0).val + 31, ht⟩ (0 : Fin 3) = (32 * (i 0).val + 31) / 32 := e0
  intro a
  match a with
  | ⟨0, _⟩ =>
    show win0_3.index ⟨32 * (i 0).val + 31, ht⟩ (0 : Fin 3) * 1 ≤ (i 0).val
      ∧ (i 0).val < win0_3.index ⟨32 * (i 0).val + 31, ht⟩ (0 : Fin 3) * 1 + 1
    rw [e0']; omega
  | ⟨1, _⟩ =>
    show win0_3.index ⟨32 * (i 0).val + 31, ht⟩ (1 : Fin 3) * 1 ≤ (i 1).val
      ∧ (i 1).val < win0_3.index ⟨32 * (i 0).val + 31, ht⟩ (1 : Fin 3) * 1 + 1
    rw [e1]; omega
  | ⟨2, _⟩ =>
    show win0_3.index ⟨32 * (i 0).val + 31, ht⟩ (2 : Fin 3) * 1 ≤ (i 2).val
      ∧ (i 2).val < win0_3.index ⟨32 * (i 0).val + 31, ht⟩ (2 : Fin 3) * 1 + 1
    rw [e2]; omega

/-- So the two output arrays end holding the cells after each core's last tile. -/
theorem final2 (c : Dev nD) : (dats m 0 c).arrAt 2 cfg0.N = finS m c :=
  (dats m 0 c).arrAt_eq_of_cover 2 (finS m c) (flushed2_eq m c) cover2

theorem final3 (c : Dev nD) : (dats m 0 c).arrAt 3 cfg0.N = finC m c :=
  (dats m 0 c).arrAt_eq_of_cover 3 (finC m c) (flushed3_eq m c) cover3

end Acc

end Cert.KernelIdeal.Acc

end
-- ==== Proof.KernelRun.lean ====
/-
  The kernel's program, run: its result is the loss of Spec.lean of the distances its region is entered with and the ranks.
  A tile is 64 consecutive groups: the block of point t holds rows 64 t … 64 t + 63 of both staged arrays, so the tiles'
  sums and counts, accumulated per core and copied out at each core's last tile, add up — through the two slices and the
  two additions after the region — to the sum of all contributions and the word of the number of counting pairs; the
  program ends with their quotient under the count's positivity test.
-/
import proofs.«414256_j69896297775322_3_alg».proof.Proof.KernelAcc
import Idealize.ShloMosaic.Lib.StableHlo.Run

noncomputable section

namespace Cert.KernelIdeal.Run

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Acc Cert.RankLoss

variable (m : (ℓ : Loc nD τ sig) → Buf (Elt Ideal) ℓ) (ρ : Dev nD → PrngReg)

/-- The distances and the ranks as the region finds them, as arrays of 4096 groups. -/
abbrev Darr (c : Dev nD) : (SG 4096).Idx → EReal := V m c main_v3
abbrev Rarr (c : Dev nD) : (SG 4096).Idx → BitVec 32 := V m c main_arg2

/-- Both input windows' block at point `t` is block (t, 0). -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The block of distances at point `t` is rows 64 t … 64 t + 63 of the distances. -/
theorem xblk_apply (c : Dev nD) (t : Fin cfg0.N) (g : Fin 64) (i : Fin 128) :
    xblk m c t (ix2 g i) = Darr m c (ix2 ⟨64 * t.val + g.val, by have := t.isLt; have : cfg0.N = 64 := N_0; omega⟩ i) := by
  show V m c main_v3 (((cfg0.win 0).blk t).view.emb (ix2 g i)) = V m c main_v3 _
  refine congrArg (V m c main_v3) (funext fun a => Fin.ext ?_)
  obtain ⟨e0, e1, -, -⟩ := idx_in t
  match a with
  | ⟨0, _⟩ => show win0_0.index t (0 : Fin 2) * 64 + 1 * g.val = 64 * t.val + g.val; rw [e0]; omega
  | ⟨1, _⟩ => show win0_0.index t (1 : Fin 2) * 128 + 1 * i.val = i.val; rw [e1]; omega

/-- The block of rank words likewise. -/
theorem wblk_apply (c : Dev nD) (t : Fin cfg0.N) (g : Fin 64) (i : Fin 128) :
    wblk m c t (ix2 g i) = Rarr m c (ix2 ⟨64 * t.val + g.val, by have := t.isLt; have : cfg0.N = 64 := N_0; omega⟩ i) := by
  show V m c main_arg2 (((cfg0.win 1).blk t).view.emb (ix2 g i)) = V m c main_arg2 _
  refine congrArg (V m c main_arg2) (funext fun a => Fin.ext ?_)
  obtain ⟨-, -, e0, e1⟩ := idx_in t
  match a with
  | ⟨0, _⟩ => show win0_1.index t (0 : Fin 2) * 64 + 1 * g.val = 64 * t.val + g.val; rw [e0]; omega
  | ⟨1, _⟩ => show win0_1.index t (1 : Fin 2) * 128 + 1 * i.val = i.val; rw [e1]; omega

/-- The same by the point's number. -/
theorem Dt_apply (c : Dev nD) (t : ℕ) (ht : t < 64) (g : Fin 64) (i : Fin 128) :
    Dt m c t (ix2 g i) = Darr m c (ix2 ⟨64 * t + g.val, by omega⟩ i) := by
  have hN : t < cfg0.N := by rw [show cfg0.N = 64 from N_0]; exact ht
  unfold Dt; rw [dif_pos hN]
  exact xblk_apply m c ⟨t, hN⟩ g i

theorem Rt_apply (c : Dev nD) (t : ℕ) (ht : t < 64) (g : Fin 64) (i : Fin 128) :
    Rt m c t (ix2 g i) = Rarr m c (ix2 ⟨64 * t + g.val, by omega⟩ i) := by
  have hN : t < cfg0.N := by rw [show cfg0.N = 64 from N_0]; exact ht
  unfold Rt; rw [dif_pos hN]
  exact wblk_apply m c ⟨t, hN⟩ g i

/-- THE TOTALS: the two cores' sum cells add up to the sum of all contributions, their count cells to the word of the
    number of counting pairs. -/
theorem totals (c : Dev nD) :
    accS m c 31 + accS m c 63 = lossSum (Darr m c) (Rarr m c)
    ∧ accC m c 31 + accC m c 63 = BitVec.ofNat 32 (pairCount (Darr m c) (Rarr m c)) :=
  kernel_totals (Darr m c) (Rarr m c) (Dt m c) (Rt m c) (Dt_apply m c) (Rt_apply m c)

/-- One entry of a [2, 1, 1] array, sliced out and reshaped to a scalar. -/
theorem slice_entry {α : Type} (A : S2x1x1.Idx → α) (o : ℕ) (ho : o < 2) (h : S2x1x1.Slices ![o, 0, 0] S1x1x1)
    (hc : S1x1x1.ShapeCasts S_) (j : S_.Idx) :
    shapeCast S_ (extractStridedSlice S1x1x1 ![o, 0, 0] A h) hc j = A (ix3 ⟨o, ho⟩ 0 0) := by
  refine (shapeCast_apply _ hc j (ix3 0 0 0) ?_).trans ?_
  · have h1 := (S1x1x1.rowMajor (ix3 0 0 0)).isLt
    have h2 := (S_.rowMajor j).isLt
    have e1 : S1x1x1.numel = 1 := by decide
    have e2 : S_.numel = 1 := by decide
    omega
  · exact extractStridedSlice_apply _ A h _ _ (fun a => by
      match a with
      | ⟨0, _⟩ => rfl
      | ⟨1, _⟩ => rfl
      | ⟨2, _⟩ => rfl)

/-- THE TAIL. After the region the program adds the two cores' entries of each output and ends with the quotient. -/
theorem tail_eq (c : Dev nD) (A2 : S2x1x1.Idx → EReal) (A3 : S2x1x1.Idx → BitVec 32)
    (h2 : Pipeline.withArrays (cfgs 0).spec c (V0 m c) (fun w => (dats m 0 c).arrAt w (cfgs 0).N) (Proc.tc.devRef main_v4_0) = A2)
    (h3 : Pipeline.withArrays (cfgs 0).spec c (V0 m c) (fun w => (dats m 0 c).arrAt w (cfgs 0).N) (Proc.tc.devRef main_v4_1) = A3) :
    Pipeline.afterTail₀ cfgs (dats m) 0 (V0 m) [hostOps1, hostOps1_1] c main_v18
      = fun _ => quotient (A2 (ix3 0 0 0) + A2 (ix3 1 0 0)) (A3 (ix3 0 0 0) + A3 (ix3 1 0 0)) := by
  unfold Pipeline.afterTail₀
  simp only [hostOps1, hostOps1_1, List.flatten_cons, List.flatten_nil, List.append_nil, List.cons_append, List.nil_append]
  after_results
  simp only [TRef.ofBuf, TRef.toBuf, cast_eq]
  rw [h2, h3]
  funext j
  show Scalar.select
      (Ideal.cmp .ogt (rk (shapeCast S_ (extractStridedSlice S1x1x1 ![0, 0, 0] A3 slices_S2x1x1_S1x1x1_0_0_0) shapeCasts_S1x1x1_S_ j
          + shapeCast S_ (extractStridedSlice S1x1x1 ![1, 0, 0] A3 slices_S2x1x1_S1x1x1_1_0_0) shapeCasts_S1x1x1_S_ j))
        (Ideal.ofBits .f32 0x00000000#32))
      (Ideal.div (shapeCast S_ (extractStridedSlice S1x1x1 ![0, 0, 0] A2 slices_S2x1x1_S1x1x1_0_0_0) shapeCasts_S1x1x1_S_ j
          + shapeCast S_ (extractStridedSlice S1x1x1 ![1, 0, 0] A2 slices_S2x1x1_S1x1x1_1_0_0) shapeCasts_S1x1x1_S_ j)
        (rk (shapeCast S_ (extractStridedSlice S1x1x1 ![0, 0, 0] A3 slices_S2x1x1_S1x1x1_0_0_0) shapeCasts_S1x1x1_S_ j
          + shapeCast S_ (extractStridedSlice S1x1x1 ![1, 0, 0] A3 slices_S2x1x1_S1x1x1_1_0_0) shapeCasts_S1x1x1_S_ j)))
      (Ideal.ofBits .f32 0x00000000#32) = _
  rw [slice_entry A3 0 (by decide), slice_entry A3 1 (by decide), slice_entry A2 0 (by decide), slice_entry A2 1 (by decide),
    Ideal.ofBits_zero_f32]
  rfl

/-- So the program's result is the loss of the distances and ranks its region is entered with. -/
theorem result_eq (c : Dev nD) :
    Pipeline.afterTail₀ cfgs (dats m) 0 (V0 m) [hostOps1, hostOps1_1] c main_v18 = fun _ => loss (Darr m c) (Rarr m c) := by
  have h2 : Pipeline.withArrays (cfgs 0).spec c (V0 m c) (fun w => (dats m 0 c).arrAt w (cfgs 0).N) (Proc.tc.devRef main_v4_0) = finS m c :=
    (Pipeline.withArrays_arr spec0 launch0.win.arr_inj c _ _ 2).trans (final2 m c)
  have h3 : Pipeline.withArrays (cfgs 0).spec c (V0 m c) (fun w => (dats m 0 c).arrAt w (cfgs 0).N) (Proc.tc.devRef main_v4_1) = finC m c :=
    (Pipeline.withArrays_arr spec0 launch0.win.arr_inj c _ _ 3).trans (final3 m c)
  rw [tail_eq m c (finS m c) (finC m c) h2 h3]
  obtain ⟨hs, hc⟩ := totals m c
  funext _
  show quotient (accS m c (32 * 0 + 31) + accS m c (32 * 1 + 31)) (accC m c (32 * 0 + 31) + accC m c (32 * 1 + 31)) = _
  show quotient (accS m c 31 + accS m c 63) (accC m c 31 + accC m c 63) = _
  rw [hs, hc]
  rfl

/-- THE RUN: every weakly fair execution of the kernel's program ends with that result and the arguments unchanged. -/
theorem run : θ_run defs (onTc (τ := τ) (main (F := Ideal))) ⟨m, fun _ => 0, ρ⟩ (fun r => ∀ c : Dev nD,
      r.2.mem ((c.tc : Thread nD τ).loc main_v18) = (fun _ => loss (Darr m c) (Rarr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Run

end
-- ==== Proof.lean ====
/-
  The certificate of a pairwise rank-consistency loss. For 4096 groups of 128 neighbours, with low-dimensional distances
  D[g, i] = ‖a[g, i, :] - b[g, :]‖ and integer ranks r[g, i], the loss is

      (∑_{g, i, k : r_i < r_k, D_i ≥ D_k} (D_i - D_k) · (r_k - r_i)) / #{(g, i, k) : r_i < r_k, D_i ≥ D_k}

  (zero when no pair counts). The reference computes it on the host in one piece. The kernel computes the distances on the
  host by the same operations, and then, tile of 64 groups by tile, on two cores of 32 tiles each, the masked products'
  sum and the mask's count: the mask tested on the differences (r_k - r_i > 0, D_i - D_k ≥ 0), each tile's count summed as
  a real and cast back to a word, both accumulated in a scratch cell that a core's first tile resets and its last tile
  copies out; the host adds the two cores' entries and divides.

  On the extended reals the two agree. The distances are real numbers because the inputs are (the precondition), and on
  real distances the test on the differences is the test on the values; a sum of extended reals does not depend on its
  order or grouping, so the tiles' sums add up to the whole; a tile holds at most 2^20 pairs, so its count as a real casts
  back to the same word the reference's integer sum counts, and words add without regard to grouping; and the signed
  test of the count word is the real test of the converted word.

  The frames of the two kernel programs are the generated ones; the reference's run is a repaired copy of the generated
  one (RefRun.lean, with RefRead.lean over it).
-/
import proofs.«414256_j69896297775322_3_alg».proof.Defs
import proofs.«414256_j69896297775322_3_alg».proof.Proof.Gen.Kernel
import proofs.«414256_j69896297775322_3_alg».proof.Proof.Gen.Kernel.Skeleton
import proofs.«414256_j69896297775322_3_alg».proof.Proof.Gen.Kernel.Launch
import proofs.«414256_j69896297775322_3_alg».proof.Proof.Gen.Kernel.Points
import proofs.«414256_j69896297775322_3_alg».proof.Proof.Gen.Kernel.Frame
import proofs.«414256_j69896297775322_3_alg».proof.Proof.Gen.KernelIdeal
import proofs.«414256_j69896297775322_3_alg».proof.Proof.Gen.KernelIdeal.Skeleton
import proofs.«414256_j69896297775322_3_alg».proof.Proof.Gen.KernelIdeal.Launch
import proofs.«414256_j69896297775322_3_alg».proof.Proof.Gen.KernelIdeal.Points
import proofs.«414256_j69896297775322_3_alg».proof.Proof.Gen.KernelIdeal.Frame
import proofs.«414256_j69896297775322_3_alg».proof.Proof.Gen.ReferenceIdeal
import proofs.«414256_j69896297775322_3_alg».proof.Proof.Gen.Pre_finite_inputs
import proofs.«414256_j69896297775322_3_alg».proof.Proof.RefRun
import proofs.«414256_j69896297775322_3_alg».proof.Proof.RefRead
import proofs.«414256_j69896297775322_3_alg».proof.Proof.Spec
import proofs.«414256_j69896297775322_3_alg».proof.Proof.SpecLaws
import proofs.«414256_j69896297775322_3_alg».proof.Proof.Finite
import proofs.«414256_j69896297775322_3_alg».proof.Proof.RefSide
import proofs.«414256_j69896297775322_3_alg».proof.Proof.HostChain
import proofs.«414256_j69896297775322_3_alg».proof.Proof.KernelRun
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the loss of the same distances and ranks. -/
theorem algebraic : Cert.algebraic_KernelIdeal_ReferenceIdeal := by
  intro m ρ m' ρ' hpre hagree
  refine ⟨fun c => fun _ => Cert.RankLoss.loss (Cert.KernelIdeal.Run.Darr m c) (Cert.KernelIdeal.Run.Rarr m c),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2⟩ := hagree c
  rw [Cert.ReferenceIdeal.ReadP.val_main_v30_eq, a0, a1, a2]
  obtain ⟨f0, f1⟩ := Cert.RankLoss.finite_of_pre _ _ _ (hpre c)
  have hfin := Cert.ReferenceIdeal.RefValue.dist_finite _ _ f0 f1
  funext i
  rw [Cert.ReferenceIdeal.RefValue.ref_loss _ _ _ hfin i, ← Cert.KernelIdeal.HostChain.V_main_v3 m c]
  exact congrArg (Cert.RankLoss.loss _) (Cert.KernelIdeal.Gen.V_main_arg2 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
